-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x1000 : Shape := ⟨2, ![512, 1000]⟩
abbrev S1000 : Shape := ⟨1, ![1000]⟩
abbrev S1000x500 : Shape := ⟨2, ![1000, 500]⟩
abbrev S500 : Shape := ⟨1, ![500]⟩
abbrev S500x250 : Shape := ⟨2, ![500, 250]⟩
abbrev S250 : Shape := ⟨1, ![250]⟩
abbrev S250x1 : Shape := ⟨2, ![250, 1]⟩
abbrev S1 : Shape := ⟨1, ![1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x1000 : S_.BroadcastsInDim S512x1000 (![] : Fin 0 → Fin S512x1000.rank)
  reducesTo_S512x1000_S_d0_1 : S512x1000.ReducesTo [0, 1] S_
  bcast_S_S1000 : S_.BroadcastsInDim S1000 (![] : Fin 0 → Fin S1000.rank)
  reducesTo_S1000_S_d0 : S1000.ReducesTo [0] S_
  bcast_S_S1000x500 : S_.BroadcastsInDim S1000x500 (![] : Fin 0 → Fin S1000x500.rank)
  reducesTo_S1000x500_S_d0_1 : S1000x500.ReducesTo [0, 1] S_
  bcast_S_S500 : S_.BroadcastsInDim S500 (![] : Fin 0 → Fin S500.rank)
  reducesTo_S500_S_d0 : S500.ReducesTo [0] S_
  bcast_S_S500x250 : S_.BroadcastsInDim S500x250 (![] : Fin 0 → Fin S500x250.rank)
  reducesTo_S500x250_S_d0_1 : S500x250.ReducesTo [0, 1] S_
  bcast_S_S250 : S_.BroadcastsInDim S250 (![] : Fin 0 → Fin S250.rank)
  reducesTo_S250_S_d0 : S250.ReducesTo [0] S_
  bcast_S_S250x1 : S_.BroadcastsInDim S250x1 (![] : Fin 0 → Fin S250x1.rank)
  reducesTo_S250x1_S_d0_1 : S250x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S250 .f32) (main_arg8 : FVec F S250x1 .f32) (main_arg9 : FVec F S1 .f32) (main_v33 : IVec S_ 1) : IVec S_ 1 :=
  let main_v34 : FVec F S250 .f32 := Host.absf main_arg7
  let main_cst_12 : FVec F S_ .f32 := constant S_ .f32 0x7F800000#32
  let main_v35 : FVec F S250 .f32 := broadcastInDim S250 ![] bcast_S_S250 main_cst_12
  let main_v36 : IVec S250 1 := cmpf .olt main_v34 main_v35
  let main_c_13 : IVec S_ 1 := constantI S_ 1 1#1
  let main_v37 : IVec S_ 1 := (fun x v => Host.reduce IntOp.andi x v reducesTo_S250_S_d0 h_S_) main_v36 main_c_13
  let main_v38 : IVec S_ 1 := andi main_v33 main_v37
  let main_v39 : FVec F S250x1 .f32 := Host.absf main_arg8
  let main_cst_14 : FVec F S_ .f32 := constant S_ .f32 0x7F800000#32
  let main_v40 : FVec F S250x1 .f32 := broadcastInDim S250x1 ![] bcast_S_S250x1 main_cst_14
  let main_v41 : IVec S250x1 1 := cmpf .olt main_v39 main_v40
  let main_c_15 : IVec S_ 1 := constantI S_ 1 1#1
  let main_v42 : IVec S_ 1 := (fun x v => Host.reduce IntOp.andi x v reducesTo_S250x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S1000x500 .f32) (main_arg5 : FVec F S500 .f32) (main_arg6 : FVec F S500x250 .f32) (main_arg7 : FVec F S250 .f32) (main_arg8 : FVec F S250x1 .f32) (main_arg9 : FVec F S1 .f32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_v19 : FVec F S1000x500 .f32 := Host.absf main_arg4
  let main_cst_6 : FVec F S_ .f32 := constant S_ .f32 0x7F800000#32
  let main_v20 : FVec F S1000x500 .f32 := broadcastInDim S1000x500 ![] bcast_S_S1000x500 main_cst_6
  let main_v21 : IVec S1000x500 1 := cmpf .olt main_v19 main_v20
  let main_c_7 : IVec S_ 1 := constantI S_ 1 1#1
  let main_v22 : IVec S_ 1 := (fun x v => Host.reduce IntOp.andi x v reducesTo_S1000x500_S_d0_1 h_S_) main_v21 main_c_7
  let main_v23 : IVec S_ 1 := andi main_v18 main_v22
  let main_v24 : FVec F S500 .f32 := Host.absf main_arg5
  let main_cst_8 : FVec F S_ .f32 := constant S_ .f32 0x7F800000#32
  let main_v25 : FVec F S500 .f32 := broadcastInDim S500 ![] bcast_S_S500 main_cst_8
  let main_v26 : IVec S500 1 := cmpf .olt main_v24 main_v25
  let main_c_9 : IVec S_ 1 := constantI S_ 1 1#1
  let main_v27 : IVec S_ 1 := (fun x v => Host.reduce IntOp.andi x v reducesTo_S500_S_d0 h_S_) main_v26 main_c_9
  let main_v28 : IVec S_ 1 := andi main_v23 main_v27
  let main_v29 : FVec F S500x250 .f32 := Host.absf main_arg6
  let main_cst_10 : FVec F S_ .f32 := constant S_ .f32 0x7F800000#32
  let main_v30 : FVec F S500x250 .f32 := broadcastInDim S500x250 ![] bcast_S_S500x250 main_cst_10
  let main_v31 : IVec S500x250 1 := cmpf .olt main_v29 main_v30
  let main_c_11 : IVec S_ 1 := constantI S_ 1 1#1
  let main_v32 : IVec S_ 1 := (fun x v => Host.reduce IntOp.andi x v reducesTo_S500x250_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x512 .f32) (main_arg1 : FVec F S65536x512 .f32) (main_arg2 : FVec F S512x1000 .f32) (main_arg3 : FVec F S1000 .f32) (main_arg4 : FVec F S1000x500 .f32) (main_arg5 : FVec F S500 .f32) (main_arg6 : FVec F S500x250 .f32) (main_arg7 : FVec F S250 .f32) (main_arg8 : FVec F S250x1 .f32) (main_arg9 : FVec F S1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S512x1000 .f32 := Host.absf main_arg2
  let main_cst_2 : FVec F S_ .f32 := constant S_ .f32 0x7F800000#32
  let main_v10 : FVec F S512x1000 .f32 := broadcastInDim S512x1000 ![] bcast_S_S512x1000 main_cst_2
  let main_v11 : IVec S512x1000 1 := cmpf .olt main_v9 main_v10
  let main_c_3 : IVec S_ 1 := constantI S_ 1 1#1
  let main_v12 : IVec S_ 1 := (fun x v => Host.reduce IntOp.andi x v reducesTo_S512x1000_S_d0_1 h_S_) main_v11 main_c_3
  let main_v13 : IVec S_ 1 := andi main_v8 main_v12
  let main_v14 : FVec F S1000 .f32 := Host.absf main_arg3
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg4 main_arg5 main_arg6 main_arg7 main_arg8 main_arg9 main_v13 main_v16
-- ==== Kernel.lean ====
abbrev S65536x512 : Shape := ⟨2, ![65536, 512]⟩
abbrev S512x1000 : Shape := ⟨2, ![512, 1000]⟩
abbrev S1000 : Shape := ⟨1, ![1000]⟩
abbrev S1000x500 : Shape := ⟨2, ![1000, 500]⟩
abbrev S500 : Shape := ⟨1, ![500]⟩
abbrev S500x250 : Shape := ⟨2, ![500, 250]⟩
abbrev S250 : Shape := ⟨1, ![250]⟩
abbrev S250x1 : Shape := ⟨2, ![250, 1]⟩
abbrev S1 : Shape := ⟨1, ![1]⟩
abbrev S1x1000 : Shape := ⟨2, ![1, 1000]⟩
abbrev S1x500 : Shape := ⟨2, ![1, 500]⟩
abbrev S1x250 : Shape := ⟨2, ![1, 250]⟩
abbrev S1x1 : Shape := ⟨2, ![1, 1]⟩
abbrev S65536x1 : Shape := ⟨2, ![65536, 1]⟩
abbrev S2048x512 : Shape := ⟨2, ![2048, 512]⟩
abbrev S2048x1 : Shape := ⟨2, ![2048, 1]⟩
abbrev S2048x1000 : Shape := ⟨2, ![2048, 1000]⟩
abbrev S2048x500 : Shape := ⟨2, ![2048, 500]⟩
abbrev S2048x250 : Shape := ⟨2, ![2048, 250]⟩
abbrev S65536 : Shape := ⟨1, ![65536]⟩
abbrev S_ : Shape := ⟨0, ![]⟩

abbrev nBuf : Space → Nat
  | .hbm => 71
  | .vmem => 24
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S512x1000, .f32⟩
  | .hbm, ⟨3, _⟩ => ⟨S1000, .f32⟩
  | .hbm, ⟨4, _⟩ => ⟨S1000x500, .f32⟩
  | .hbm, ⟨5, _⟩ => ⟨S500, .f32⟩
  | .hbm, ⟨6, _⟩ => ⟨S500x250, .f32⟩
  | .hbm, ⟨7, _⟩ => ⟨S250, .f32⟩
  | .hbm, ⟨8, _⟩ => ⟨S250x1, .f32⟩
  | .hbm, ⟨9, _⟩ => ⟨S1, .f32⟩
  | .hbm, ⟨10, _⟩ => ⟨S512x1000, .bf16⟩
  | .hbm, ⟨11, _⟩ => ⟨S1000x500, .bf16⟩
  | .hbm, ⟨12, _⟩ => ⟨S500x250, .bf16⟩
  | .hbm, ⟨13, _⟩ => ⟨S250x1, .bf16⟩
  | .hbm, ⟨14, _⟩ => ⟨S1x1000, .f32⟩
  | .hbm, ⟨15, _⟩ => ⟨S1x500, .f32⟩
  | .hbm, ⟨16, _⟩ => ⟨S1x250, .f32⟩
  | .hbm, ⟨17, _⟩ => ⟨S1x1, .f32⟩
  | .hbm, ⟨18, _⟩ => ⟨S65536x1, .f32⟩
  | .hbm, ⟨19, _⟩ => ⟨S65536, .f32⟩
  | .hbm, ⟨20, _⟩ => ⟨S65536x1, .f32⟩
  | .hbm, ⟨21, _⟩ => ⟨S65536, .f32⟩
  | .hbm, ⟨22, _⟩ => ⟨S65536, .f32⟩
  | .hbm, ⟨23, _⟩ => ⟨S_, .f32⟩
  | .hbm, ⟨24, _⟩ => ⟨S65536, .f32⟩
  | .hbm, ⟨25, _⟩ => ⟨S65536, .f32⟩
  | .hbm, ⟨26, _⟩ => ⟨S65536, .f32⟩
  | .hbm, ⟨27, _⟩ => ⟨S65536, .f32⟩
  | .hbm, ⟨28, _⟩ => ⟨S65536, .i1⟩
  | .hbm, ⟨29, _⟩ => ⟨S65536, .f32⟩
  | .hbm, ⟨30, _⟩ => ⟨S65536, .f32⟩
  | .hbm, ⟨31, _⟩ => ⟨S65536, .f32⟩
  | .hbm, ⟨32, _⟩ => ⟨S65536, .f32⟩
  | .hbm, ⟨33, _⟩ => ⟨S65536, .f32⟩
  | .hbm, ⟨34, _⟩ => ⟨S65536, .f32⟩
  | .hbm, ⟨35, _⟩ => ⟨S65536, .f32⟩
  | .hbm, ⟨36, _⟩ => ⟨S65536, .f32⟩
  | .hbm, ⟨37, _⟩ => ⟨S_, .f32⟩
  | .hbm, ⟨38, _⟩ => ⟨S_, .f32⟩
  | .hbm, ⟨39, _⟩ => ⟨S65536, .f32⟩
  | .hbm, ⟨40, _⟩ => ⟨S_, .f32⟩
  | .hbm, ⟨41, _⟩ => ⟨S65536, .f32⟩
  | .hbm, ⟨42, _⟩ => ⟨S65536, .f32⟩
  | .hbm, ⟨43, _⟩ => ⟨S65536, .f32⟩
  | .hbm, ⟨44, _⟩ => ⟨S65536, .f32⟩
  | .hbm, ⟨45, _⟩ => ⟨S65536, .i1⟩
  | .hbm, ⟨46, _⟩ => ⟨S65536, .f32⟩
  | .hbm, ⟨47, _⟩ => ⟨S65536, .f32⟩
  | .hbm, ⟨48, _⟩ => ⟨S65536, .f32⟩
  | .hbm, ⟨49, _⟩ => ⟨S65536, .f32⟩
  | .hbm, ⟨50, _⟩ => ⟨S65536, .f32⟩
  | .hbm, ⟨51, _⟩ => ⟨S65536, .f32⟩
  | .hbm, ⟨52, _⟩ => ⟨S65536, .f32⟩
  | .hbm, ⟨53, _⟩ => ⟨S65536, .f32⟩
  | .hbm, ⟨54, _⟩ => ⟨S_, .f32⟩
  | .hbm, ⟨55, _⟩ => ⟨S65536, .f32⟩
  | .hbm, ⟨56, _⟩ => ⟨S65536, .f32⟩
  | .hbm, ⟨57, _⟩ => ⟨S65536, .f32⟩
  | .hbm, ⟨58, _⟩ => ⟨S65536, .f32⟩
  | .hbm, ⟨59, _⟩ => ⟨S65536, .i1⟩
  | .hbm, ⟨60, _⟩ => ⟨S65536, .f32⟩
  | .hbm, ⟨61, _⟩ => ⟨S65536, .f32⟩
  | .hbm, ⟨62, _⟩ => ⟨S65536, .f32⟩
  | .hbm, ⟨63, _⟩ => ⟨S65536, .f32⟩
  | .hbm, ⟨64, _⟩ => ⟨S65536, .f32⟩
  | .hbm, ⟨65, _⟩ => ⟨S65536, .f32⟩
  | .hbm, ⟨66, _⟩ => ⟨S65536, .f32⟩
  | .hbm, ⟨67, _⟩ => ⟨S65536, .f32⟩
  | .hbm, ⟨68, _⟩ => ⟨S65536, .f32⟩
  | .hbm, ⟨69, _⟩ => ⟨S_, .f32⟩
  | .hbm, ⟨70, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S512x1000, .bf16⟩
  | .local _ .vmem, ⟨3, _⟩ => ⟨S1x1000, .f32⟩
  | .local _ .vmem, ⟨4, _⟩ => ⟨S1000x500, .bf16⟩
  | .local _ .vmem, ⟨5, _⟩ => ⟨S1x500, .f32⟩
  | .local _ .vmem, ⟨6, _⟩ => ⟨S500x250, .bf16⟩
  | .local _ .vmem, ⟨7, _⟩ => ⟨S1x250, .f32⟩
  | .local _ .vmem, ⟨8, _⟩ => ⟨S250x1, .bf16⟩
  | .local _ .vmem, ⟨9, _⟩ => ⟨S1x1, .f32⟩
  | .local _ .vmem, ⟨10, _⟩ => ⟨S2048x1, .f32⟩
  | .local _ .vmem, ⟨11, _⟩ => ⟨S2048x1, .f32⟩
  | .local _ .vmem, ⟨12, _⟩ => ⟨S2048x512, .f32⟩
  | .local _ .vmem, ⟨13, _⟩ => ⟨S2048x512, .f32⟩
  | .local _ .vmem, ⟨14, _⟩ => ⟨S512x1000, .bf16⟩
  | .local _ .vmem, ⟨15, _⟩ => ⟨S1x1000, .f32⟩
  | .local _ .vmem, ⟨16, _⟩ => ⟨S1000x500, .bf16⟩
  | .local _ .vmem, ⟨17, _⟩ => ⟨S1x500, .f32⟩
  | .local _ .vmem, ⟨18, _⟩ => ⟨S500x250, .bf16⟩
  | .local _ .vmem, ⟨19, _⟩ => ⟨S1x250, .f32⟩
  | .local _ .vmem, ⟨20, _⟩ => ⟨S250x1, .bf16⟩
  | .local _ .vmem, ⟨21, _⟩ => ⟨S1x1, .f32⟩
  | .local _ .vmem, ⟨22, _⟩ => ⟨S2048x1, .f32⟩
  | .local _ .vmem, ⟨23, _⟩ => ⟨S2048x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_v15 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_v16 : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_v17 : Ref sig .tc := ⟨.hbm, 67, rfl⟩
abbrev main_v18 : Ref sig .tc := ⟨.hbm, 68, rfl⟩
abbrev main_cst_0 : Ref sig .tc := ⟨.hbm, 69, rfl⟩
abbrev main_v19 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x500 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S500x250 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x250 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S250x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1000 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1000x500 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x500 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S500x250 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x250 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S250x1 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  shapeCasts_S1000_S1x1000 : S1000.ShapeCasts S1x1000
  shapeCasts_S500_S1x500 : S500.ShapeCasts S1x500
  shapeCasts_S250_S1x250 : S250.ShapeCasts S1x250
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  inb_S512x1000_S512x1000_0_0 : ∀ a, (![0, 0] : Fin 2 → Nat) a + S512x1000.size a ≤ S512x1000.size a
  h_S512x1000 : 0 < S512x1000.numel
  shapeCasts_S512x1000_S512x1000 : S512x1000.ShapeCasts S512x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S2048x1000 : S1x1000.Broadcasts S2048x1000
  inb_S1000x500_S1000x500_0_0 : ∀ a, (![0, 0] : Fin 2 → Nat) a + S1000x500.size a ≤ S1000x500.size a
  h_S1000x500 : 0 < S1000x500.numel
  shapeCasts_S1000x500_S1000x500 : S1000x500.ShapeCasts S1000x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S2048x500 : S1x500.Broadcasts S2048x500
  inb_S500x250_S500x250_0_0 : ∀ a, (![0, 0] : Fin 2 → Nat) a + S500x250.size a ≤ S500x250.size a
  h_S500x250 : 0 < S500x250.numel
  shapeCasts_S500x250_S500x250 : S500x250.ShapeCasts S500x250
  inb_S1x250_S1x250_0_0 : ∀ a, (![0, 0] : Fin 2 → Nat) a + S1x250.size a ≤ S1x250.size a
  h_S1x250 : 0 < S1x250.numel
  shapeCasts_S1x250_S1x250 : S1x250.ShapeCasts S1x250
  broadcasts_S1x250_S2048x250 : S1x250.Broadcasts S2048x250
  inb_S250x1_S250x1_0_0 : ∀ a, (![0, 0] : Fin 2 → Nat) a + S250x1.size a ≤ S250x1.size a
  h_S250x1 : 0 < S250x1.numel
  shapeCasts_S250x1_S250x1 : S250x1.ShapeCasts S250x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S65536x1_S65536 : S65536x1.ShapeCasts S65536
  bcast_S_S65536 : S_.BroadcastsInDim S65536 (![] : Fin 0 → Fin S65536.rank)
  reducesTo_S65536_S_d0 : S65536.ReducesTo [0] S_
  h_S_ : 0 < S_.numel
  dot_S2048x512_S512x1000_S2048x1000_1_0_0_1_n_n_wf : DotDims.WF S2048x512 S512x1000 S2048x1000 [1] [0] [0] [1] [] []
  dot_S2048x1000_S1000x500_S2048x500_1_0_0_1_n_n_wf : DotDims.WF S2048x1000 S1000x500 S2048x500 [1] [0] [0] [1] [] []
  dot_S2048x500_S500x250_S2048x250_1_0_0_1_n_n_wf : DotDims.WF S2048x500 S500x250 S2048x250 [1] [0] [0] [1] [] []
  dot_S2048x250_S250x1_S2048x1_1_0_0_1_n_n_wf : DotDims.WF S2048x250 S250x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S512x1000.size a
  hwx0_1 : ∀ i : grid0.Coords, EltTy.bits .bf16 = 32 ∨ (Rect.block (s := S512x1000) S512x1000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x500.size a ≤ S1000x500.size a
  hwx0_3 : ∀ i : grid0.Coords, EltTy.bits .bf16 = 32 ∨ (Rect.block (s := S1000x500) S1000x500.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x500.size a ≤ S1x500.size a
  hwx0_4 : ∀ i : grid0.Coords, EltTy.bits .f32 = 32 ∨ (Rect.block (s := S1x500) S1x500.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S500x250.size a ≤ S500x250.size a
  hwx0_5 : ∀ i : grid0.Coords, EltTy.bits .bf16 = 32 ∨ (Rect.block (s := S500x250) S500x250.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x250.size a ≤ S1x250.size a
  hwx0_6 : ∀ i : grid0.Coords, EltTy.bits .f32 = 32 ∨ (Rect.block (s := S1x250) S1x250.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S250x1.size a ≤ S250x1.size a
  hwx0_7 : ∀ i : grid0.Coords, EltTy.bits .bf16 = 32 ∨ (Rect.block (s := S250x1) S250x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x1.size a ≤ S65536x1.size a
  hwx0_9 : ∀ i : grid0.Coords, EltTy.bits .f32 = 32 ∨ (Rect.block (s := S65536x1) S2048x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S65536x512.size a
  hwx1_0 : ∀ i : grid1.Coords, EltTy.bits .f32 = 32 ∨ (Rect.block (s := S65536x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1000.size a ≤ S512x1000.size a
  hwx1_1 : ∀ i : grid1.Coords, EltTy.bits .bf16 = 32 ∨ (Rect.block (s := S512x1000) S512x1000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1000.size a ≤ S1x1000.size a
  hwx1_2 : ∀ i : grid1.Coords, EltTy.bits .f32 = 32 ∨ (Rect.block (s := S1x1000) S1x1000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1000x500.size a ≤ S1000x500.size a
  hwx1_3 : ∀ i : grid1.Coords, EltTy.bits .bf16 = 32 ∨ (Rect.block (s := S1000x500) S1000x500.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x500.size a ≤ S1x500.size a
  hwx1_4 : ∀ i : grid1.Coords, EltTy.bits .f32 = 32 ∨ (Rect.block (s := S1x500) S1x500.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S500x250.size a ≤ S500x250.size a
  hwx1_5 : ∀ i : grid1.Coords, EltTy.bits .bf16 = 32 ∨ (Rect.block (s := S500x250) S500x250.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x250.size a ≤ S1x250.size a
  hwx1_6 : ∀ i : grid1.Coords, EltTy.bits .f32 = 32 ∨ (Rect.block (s := S1x250) S1x250.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S250x1.size a ≤ S250x1.size a
  hwx1_7 : ∀ i : grid1.Coords, EltTy.bits .bf16 = 32 ∨ (Rect.block (s := S250x1) S250x1.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x1.size a ≤ S65536x1.size a
  hwx1_9 : ∀ i : grid1.Coords, EltTy.bits .f32 = 32 ∨ (Rect.block (s := S65536x1) S2048x1.size (cc1_transform_9 i) (hinb1_9 i)).WholeWords (EltTy.packing .f32)

variable [Facts₀]

def dot_S2048x512_S512x1000_S2048x1000_1_0_0_1_n_n : DotDims S2048x512 S512x1000 S2048x1000 where
  lhsContracting := [1]
  rhsContracting := [0]
  lhsNonContracting := [0]
  rhsNonContracting := [1]
  lhsBatch := []
  rhsBatch := []
  wf := dot_S2048x512_S512x1000_S2048x1000_1_0_0_1_n_n_wf
def dot_S2048x1000_S1000x500_S2048x500_1_0_0_1_n_n : DotDims S2048x1000 S1000x500 S2048x500 where
  lhsContracting := [1]
  rhsContracting := [0]
  lhsNonContracting := [0]
  rhsNonContracting := [1]
  lhsBatch := []
  rhsBatch := []
  wf := dot_S2048x1000_S1000x500_S2048x500_1_0_0_1_n_n_wf
def dot_S2048x500_S500x250_S2048x250_1_0_0_1_n_n : DotDims S2048x500 S500x250 S2048x250 where
  lhsContracting := [1]
  rhsContracting := [0]
  lhsNonContracting := [0]
  rhsNonContracting := [1]
  lhsBatch := []
  rhsBatch := []
  wf := dot_S2048x500_S500x250_S2048x250_1_0_0_1_n_n_wf
def dot_S2048x250_S250x1_S2048x1_1_0_0_1_n_n : DotDims S2048x250 S250x1 S2048x1 where
  lhsContracting := [1]
  rhsContracting := [0]
  lhsNonContracting := [0]
  rhsNonContracting := [1]
  lhsBatch := []
  rhsBatch := []
  wf := dot_S2048x250_S250x1_S2048x1_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S500x250.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x250.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S250x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S2048x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1000x500.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x500.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S500x250.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x250.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S250x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v7) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v10) S2048x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S65536x512 : Shape := ⟨2, ![65536, 512]⟩
abbrev S512x1000 : Shape := ⟨2, ![512, 1000]⟩
abbrev S1000 : Shape := ⟨1, ![1000]⟩
abbrev S1000x500 : Shape := ⟨2, ![1000, 500]⟩
abbrev S500 : Shape := ⟨1, ![500]⟩
abbrev S500x250 : Shape := ⟨2, ![500, 250]⟩
abbrev S250 : Shape := ⟨1, ![250]⟩
abbrev S250x1 : Shape := ⟨2, ![250, 1]⟩
abbrev S1 : Shape := ⟨1, ![1]⟩
abbrev S65536x1000 : Shape := ⟨2, ![65536, 1000]⟩
abbrev S1x1000 : Shape := ⟨2, ![1, 1000]⟩
abbrev S_ : Shape := ⟨0, ![]⟩
abbrev S65536x500 : Shape := ⟨2, ![65536, 500]⟩
abbrev S1x500 : Shape := ⟨2, ![1, 500]⟩
abbrev S65536x250 : Shape := ⟨2, ![65536, 250]⟩
abbrev S1x250 : Shape := ⟨2, ![1, 250]⟩
abbrev S65536x1 : Shape := ⟨2, ![65536, 1]⟩
abbrev S1x1 : Shape := ⟨2, ![1, 1]⟩
abbrev S65536 : Shape := ⟨1, ![65536]⟩

abbrev nBuf : Space → Nat
  | .hbm => 111
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S512x1000, .f32⟩
  | .hbm, ⟨3, _⟩ => ⟨S1000, .f32⟩
  | .hbm, ⟨4, _⟩ => ⟨S1000x500, .f32⟩
  | .hbm, ⟨5, _⟩ => ⟨S500, .f32⟩
  | .hbm, ⟨6, _⟩ => ⟨S500x250, .f32⟩
  | .hbm, ⟨7, _⟩ => ⟨S250, .f32⟩
  | .hbm, ⟨8, _⟩ => ⟨S250x1, .f32⟩
  | .hbm, ⟨9, _⟩ => ⟨S1, .f32⟩
  | .hbm, ⟨10, _⟩ => ⟨S65536x1000, .f32⟩
  | .hbm, ⟨11, _⟩ => ⟨S1x1000, .f32⟩
  | .hbm, ⟨12, _⟩ => ⟨S65536x1000, .f32⟩
  | .hbm, ⟨13, _⟩ => ⟨S65536x1000, .f32⟩
  | .hbm, ⟨14, _⟩ => ⟨S_, .f32⟩
  | .hbm, ⟨15, _⟩ => ⟨S65536x1000, .f32⟩
  | .hbm, ⟨16, _⟩ => ⟨S65536x1000, .f32⟩
  | .hbm, ⟨17, _⟩ => ⟨S65536x500, .f32⟩
  | .hbm, ⟨18, _⟩ => ⟨S1x500, .f32⟩
  | .hbm, ⟨19, _⟩ => ⟨S65536x500, .f32⟩
  | .hbm, ⟨20, _⟩ => ⟨S65536x500, .f32⟩
  | .hbm, ⟨21, _⟩ => ⟨S_, .f32⟩
  | .hbm, ⟨22, _⟩ => ⟨S65536x500, .f32⟩
  | .hbm, ⟨23, _⟩ => ⟨S65536x500, .f32⟩
  | .hbm, ⟨24, _⟩ => ⟨S65536x250, .f32⟩
  | .hbm, ⟨25, _⟩ => ⟨S1x250, .f32⟩
  | .hbm, ⟨26, _⟩ => ⟨S65536x250, .f32⟩
  | .hbm, ⟨27, _⟩ => ⟨S65536x250, .f32⟩
  | .hbm, ⟨28, _⟩ => ⟨S_, .f32⟩
  | .hbm, ⟨29, _⟩ => ⟨S65536x250, .f32⟩
  | .hbm, ⟨30, _⟩ => ⟨S65536x250, .f32⟩
  | .hbm, ⟨31, _⟩ => ⟨S65536x1, .f32⟩
  | .hbm, ⟨32, _⟩ => ⟨S1x1, .f32⟩
  | .hbm, ⟨33, _⟩ => ⟨S65536x1, .f32⟩
  | .hbm, ⟨34, _⟩ => ⟨S65536x1, .f32⟩
  | .hbm, ⟨35, _⟩ => ⟨S65536, .f32⟩
  | .hbm, ⟨36, _⟩ => ⟨S65536x1000, .f32⟩
  | .hbm, ⟨37, _⟩ => ⟨S1x1000, .f32⟩
  | .hbm, ⟨38, _⟩ => ⟨S65536x1000, .f32⟩
  | .hbm, ⟨39, _⟩ => ⟨S65536x1000, .f32⟩
  | .hbm, ⟨40, _⟩ => ⟨S_, .f32⟩
  | .hbm, ⟨41, _⟩ => ⟨S65536x1000, .f32⟩
  | .hbm, ⟨42, _⟩ => ⟨S65536x1000, .f32⟩
  | .hbm, ⟨43, _⟩ => ⟨S65536x500, .f32⟩
  | .hbm, ⟨44, _⟩ => ⟨S1x500, .f32⟩
  | .hbm, ⟨45, _⟩ => ⟨S65536x500, .f32⟩
  | .hbm, ⟨46, _⟩ => ⟨S65536x500, .f32⟩
  | .hbm, ⟨47, _⟩ => ⟨S_, .f32⟩
  | .hbm, ⟨48, _⟩ => ⟨S65536x500, .f32⟩
  | .hbm, ⟨49, _⟩ => ⟨S65536x500, .f32⟩
  | .hbm, ⟨50, _⟩ => ⟨S65536x250, .f32⟩
  | .hbm, ⟨51, _⟩ => ⟨S1x250, .f32⟩
  | .hbm, ⟨52, _⟩ => ⟨S65536x250, .f32⟩
  | .hbm, ⟨53, _⟩ => ⟨S65536x250, .f32⟩
  | .hbm, ⟨54, _⟩ => ⟨S_, .f32⟩
  | .hbm, ⟨55, _⟩ => ⟨S65536x250, .f32⟩
  | .hbm, ⟨56, _⟩ => ⟨S65536x250, .f32⟩
  | .hbm, ⟨57, _⟩ => ⟨S65536x1, .f32⟩
  | .hbm, ⟨58, _⟩ => ⟨S1x1, .f32⟩
  | .hbm, ⟨59, _⟩ => ⟨S65536x1, .f32⟩
  | .hbm, ⟨60, _⟩ => ⟨S65536x1, .f32⟩
  | .hbm, ⟨61, _⟩ => ⟨S65536, .f32⟩
  | .hbm, ⟨62, _⟩ => ⟨S65536, .f32⟩
  | .hbm, ⟨63, _⟩ => ⟨S_, .f32⟩
  | .hbm, ⟨64, _⟩ => ⟨S65536, .f32⟩
  | .hbm, ⟨65, _⟩ => ⟨S65536, .f32⟩
  | .hbm, ⟨66, _⟩ => ⟨S65536, .f32⟩
  | .hbm, ⟨67, _⟩ => ⟨S65536, .f32⟩
  | .hbm, ⟨68, _⟩ => ⟨S65536, .i1⟩
  | .hbm, ⟨69, _⟩ => ⟨S65536, .f32⟩
  | .hbm, ⟨70, _⟩ => ⟨S65536, .f32⟩
  | .hbm, ⟨71, _⟩ => ⟨S65536, .f32⟩
  | .hbm, ⟨72, _⟩ => ⟨S65536, .f32⟩
  | .hbm, ⟨73, _⟩ => ⟨S65536, .f32⟩
  | .hbm, ⟨74, _⟩ => ⟨S65536, .f32⟩
  | .hbm, ⟨75, _⟩ => ⟨S65536, .f32⟩
  | .hbm, ⟨76, _⟩ => ⟨S65536, .f32⟩
  | .hbm, ⟨77, _⟩ => ⟨S_, .f32⟩
  | .hbm, ⟨78, _⟩ => ⟨S_, .f32⟩
  | .hbm, ⟨79, _⟩ => ⟨S65536, .f32⟩
  | .hbm, ⟨80, _⟩ => ⟨S_, .f32⟩
  | .hbm, ⟨81, _⟩ => ⟨S65536, .f32⟩
  | .hbm, ⟨82, _⟩ => ⟨S65536, .f32⟩
  | .hbm, ⟨83, _⟩ => ⟨S65536, .f32⟩
  | .hbm, ⟨84, _⟩ => ⟨S65536, .f32⟩
  | .hbm, ⟨85, _⟩ => ⟨S65536, .i1⟩
  | .hbm, ⟨86, _⟩ => ⟨S65536, .f32⟩
  | .hbm, ⟨87, _⟩ => ⟨S65536, .f32⟩
  | .hbm, ⟨88, _⟩ => ⟨S65536, .f32⟩
  | .hbm, ⟨89, _⟩ => ⟨S65536, .f32⟩
  | .hbm, ⟨90, _⟩ => ⟨S65536, .f32⟩
  | .hbm, ⟨91, _⟩ => ⟨S65536, .f32⟩
  | .hbm, ⟨92, _⟩ => ⟨S65536, .f32⟩
  | .hbm, ⟨93, _⟩ => ⟨S65536, .f32⟩
  | .hbm, ⟨94, _⟩ => ⟨S_, .f32⟩
  | .hbm, ⟨95, _⟩ => ⟨S65536, .f32⟩
  | .hbm, ⟨96, _⟩ => ⟨S65536, .f32⟩
  | .hbm, ⟨97, _⟩ => ⟨S65536, .f32⟩
  | .hbm, ⟨98, _⟩ => ⟨S65536, .f32⟩
  | .hbm, ⟨99, _⟩ => ⟨S65536, .i1⟩
  | .hbm, ⟨100, _⟩ => ⟨S65536, .f32⟩
  | .hbm, ⟨101, _⟩ => ⟨S65536, .f32⟩
  | .hbm, ⟨102, _⟩ => ⟨S65536, .f32⟩
  | .hbm, ⟨103, _⟩ => ⟨S65536, .f32⟩
  | .hbm, ⟨104, _⟩ => ⟨S65536, .f32⟩
  | .hbm, ⟨105, _⟩ => ⟨S65536, .f32⟩
  | .hbm, ⟨106, _⟩ => ⟨S65536, .f32⟩
  | .hbm, ⟨107, _⟩ => ⟨S65536, .f32⟩
  | .hbm, ⟨108, _⟩ => ⟨S65536, .f32⟩
  | .hbm, ⟨109, _⟩ => ⟨S_, .f32⟩
  | .hbm, ⟨110, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call3_cst : Ref sig .tc := ⟨.hbm, 40, rfl⟩
abbrev main_call3_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call4_cst : Ref sig .tc := ⟨.hbm, 47, rfl⟩
abbrev main_call4_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call5_cst : Ref sig .tc := ⟨.hbm, 54, rfl⟩
abbrev main_call5_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call6_cst : Ref sig .tc := ⟨.hbm, 63, rfl⟩
abbrev main_call6_v0 : Ref sig .tc := ⟨.hbm, 64, rfl⟩
abbrev main_call6_v1 : Ref sig .tc := ⟨.hbm, 65, rfl⟩
abbrev main_call6_v2 : Ref sig .tc := ⟨.hbm, 66, rfl⟩
abbrev main_call6_v3 : Ref sig .tc := ⟨.hbm, 67, rfl⟩
abbrev main_call6_v4 : Ref sig .tc := ⟨.hbm, 68, rfl⟩
abbrev main_call6_v5 : Ref sig .tc := ⟨.hbm, 69, rfl⟩
abbrev main_call6_v6 : Ref sig .tc := ⟨.hbm, 70, rfl⟩
abbrev main_call6_v7 : Ref sig .tc := ⟨.hbm, 71, rfl⟩
abbrev main_call6_v8 : Ref sig .tc := ⟨.hbm, 72, rfl⟩
abbrev main_call6_v9 : Ref sig .tc := ⟨.hbm, 73, rfl⟩
abbrev main_call6_v10 : Ref sig .tc := ⟨.hbm, 74, rfl⟩
abbrev main_call6_v11 : Ref sig .tc := ⟨.hbm, 75, rfl⟩
abbrev main_v41 : Ref sig .tc := ⟨.hbm, 76, rfl⟩
abbrev main_cst : Ref sig .tc := ⟨.hbm, 77, rfl⟩
abbrev main_v42 : Ref sig .tc := ⟨.hbm, 78, rfl⟩
abbrev main_v43 : Ref sig .tc := ⟨.hbm, 79, rfl⟩
abbrev main_call7_cst : Ref sig .tc := ⟨.hbm, 80, rfl⟩
abbrev main_call7_v0 : Ref sig .tc := ⟨.hbm, 81, rfl⟩
abbrev main_call7_v1 : Ref sig .tc := ⟨.hbm, 82, rfl⟩
abbrev main_call7_v2 : Ref sig .tc := ⟨.hbm, 83, rfl⟩
abbrev main_call7_v3 : Ref sig .tc := ⟨.hbm, 84, rfl⟩
abbrev main_call7_v4 : Ref sig .tc := ⟨.hbm, 85, rfl⟩
abbrev main_call7_v5 : Ref sig .tc := ⟨.hbm, 86, rfl⟩
abbrev main_call7_v6 : Ref sig .tc := ⟨.hbm, 87, rfl⟩
abbrev main_call7_v7 : Ref sig .tc := ⟨.hbm, 88, rfl⟩
abbrev main_call7_v8 : Ref sig .tc := ⟨.hbm, 89, rfl⟩
abbrev main_call7_v9 : Ref sig .tc := ⟨.hbm, 90, rfl⟩
abbrev main_call7_v10 : Ref sig .tc := ⟨.hbm, 91, rfl⟩
abbrev main_call7_v11 : Ref sig .tc := ⟨.hbm, 92, rfl⟩
abbrev main_v44 : Ref sig .tc := ⟨.hbm, 93, rfl⟩
abbrev main_call8_cst : Ref sig .tc := ⟨.hbm, 94, rfl⟩
abbrev main_call8_v0 : Ref sig .tc := ⟨.hbm, 95, rfl⟩
abbrev main_call8_v1 : Ref sig .tc := ⟨.hbm, 96, rfl⟩
abbrev main_call8_v2 : Ref sig .tc := ⟨.hbm, 97, rfl⟩
abbrev main_call8_v3 : Ref sig .tc := ⟨.hbm, 98, rfl⟩
abbrev main_call8_v4 : Ref sig .tc := ⟨.hbm, 99, rfl⟩
abbrev main_call8_v5 : Ref sig .tc := ⟨.hbm, 100, rfl⟩
abbrev main_call8_v6 : Ref sig .tc := ⟨.hbm, 101, rfl⟩
abbrev main_call8_v7 : Ref sig .tc := ⟨.hbm, 102, rfl⟩
abbrev main_call8_v8 : Ref sig .tc := ⟨.hbm, 103, rfl⟩
abbrev main_call8_v9 : Ref sig .tc := ⟨.hbm, 104, rfl⟩
abbrev main_call8_v10 : Ref sig .tc := ⟨.hbm, 105, rfl⟩
abbrev main_call8_v11 : Ref sig .tc := ⟨.hbm, 106, rfl⟩
abbrev main_v45 : Ref sig .tc := ⟨.hbm, 107, rfl⟩
abbrev main_v46 : Ref sig .tc := ⟨.hbm, 108, rfl⟩
abbrev main_cst_0 : Ref sig .tc := ⟨.hbm, 109, rfl⟩
abbrev main_v47 : Ref sig .tc := ⟨.hbm, 110, rfl⟩

abbrev nD : Nat := 1
abbrev τ : Topo := Topo.v7x

variable {F : FTy → Type} [FloatOps F]

class Facts₀ : Prop where
  bcast_S1000_S1x1000_1 : S1000.BroadcastsInDim S1x1000 (![1] : Fin 1 → Fin S1x1000.rank)
  bcast_S1x1000_S65536x1000_0_1 : S1x1000.BroadcastsInDim S65536x1000 (![0, 1] : Fin 2 → Fin S65536x1000.rank)
  bcast_S_S65536x1000 : S_.BroadcastsInDim S65536x1000 (![] : Fin 0 → Fin S65536x1000.rank)
  bcast_S500_S1x500_1 : S500.BroadcastsInDim S1x500 (![1] : Fin 1 → Fin S1x500.rank)
  bcast_S1x500_S65536x500_0_1 : S1x500.BroadcastsInDim S65536x500 (![0, 1] : Fin 2 → Fin S65536x500.rank)
  bcast_S_S65536x500 : S_.BroadcastsInDim S65536x500 (![] : Fin 0 → Fin S65536x500.rank)
  bcast_S250_S1x250_1 : S250.BroadcastsInDim S1x250 (![1] : Fin 1 → Fin S1x250.rank)
  bcast_S1x250_S65536x250_0_1 : S1x250.BroadcastsInDim S65536x250 (![0, 1] : Fin 2 → Fin S65536x250.rank)
  bcast_S_S65536x250 : S_.BroadcastsInDim S65536x250 (![] : Fin 0 → Fin S65536x250.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S65536 : S65536x1.ShapeCasts S65536
  bcast_S_S65536 : S_.BroadcastsInDim S65536 (![] : Fin 0 → Fin S65536.rank)
  reducesTo_S65536_S_d0 : S65536.ReducesTo [0] S_
  h_S_ : 0 < S_.numel
  dot_S65536x512_S512x1000_S65536x1000_1_0_0_1_n_n_wf : DotDims.WF S65536x512 S512x1000 S65536x1000 [1] [0] [0] [1] [] []
  dot_S65536x1000_S1000x500_S65536x500_1_0_0_1_n_n_wf : DotDims.WF S65536x1000 S1000x500 S65536x500 [1] [0] [0] [1] [] []
  dot_S65536x500_S500x250_S65536x250_1_0_0_1_n_n_wf : DotDims.WF S65536x500 S500x250 S65536x250 [1] [0] [0] [1] [] []
  dot_S65536x250_S250x1_S65536x1_1_0_0_1_n_n_wf : DotDims.WF S65536x250 S250x1 S65536x1 [1] [0] [0] [1] [] []

variable [Facts₀]

def dot_S65536x512_S512x1000_S65536x1000_1_0_0_1_n_n : DotDims S65536x512 S512x1000 S65536x1000 where
  lhsContracting := [1]
  rhsContracting := [0]
  lhsNonContracting := [0]
  rhsNonContracting := [1]
  lhsBatch := []
  rhsBatch := []
  wf := dot_S65536x512_S512x1000_S65536x1000_1_0_0_1_n_n_wf
def dot_S65536x1000_S1000x500_S65536x500_1_0_0_1_n_n : DotDims S65536x1000 S1000x500 S65536x500 where
  lhsContracting := [1]
  rhsContracting := [0]
  lhsNonContracting := [0]
  rhsNonContracting := [1]
  lhsBatch := []
  rhsBatch := []
  wf := dot_S65536x1000_S1000x500_S65536x500_1_0_0_1_n_n_wf
def dot_S65536x500_S500x250_S65536x250_1_0_0_1_n_n : DotDims S65536x500 S500x250 S65536x250 where
  lhsContracting := [1]
  rhsContracting := [0]
  lhsNonContracting := [0]
  rhsNonContracting := [1]
  lhsBatch := []
  rhsBatch := []
  wf := dot_S65536x500_S500x250_S65536x250_1_0_0_1_n_n_wf
def dot_S65536x250_S250x1_S65536x1_1_0_0_1_n_n : DotDims S65536x250 S250x1 S65536x1 where
  lhsContracting := [1]
  rhsContracting := [0]
  lhsNonContracting := [0]
  rhsNonContracting := [1]
  lhsBatch := []
  rhsBatch := []
  wf := dot_S65536x250_S250x1_S65536x1_1_0_0_1_n_n_wf

class Facts : Prop extends Facts₀ where

variable [Facts]
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.MlpRow.lean ====
/-
  One row of a four-layer perceptron over the extended reals, and the two ways a program spells one of its layers.

  A dense layer sends a row x (K entries) to the row (x · W + b) (N entries): entry j is the sum over k of
  x k · W (k, j), plus b j. A rectified layer takes the larger of that and the zero word's value. The perceptron's
  logit for one row is three rectified layers followed by one dense layer onto a single column.

  A dense layer is row-local: entry (p, j) of the layer applied to a matrix depends on row p of the matrix only. That is
  what lets a program that works through the batch a block of rows at a time, and a program that takes the whole batch at
  once, be read as the same function, row by row. The lemmas below read one entry of a layer in the spelling of a
  kernel (a matrix product into a zero accumulator, a one-row bias broadcast down the rows, a maximum with a splat) and
  in the spelling of a host program (a dot_general, the bias vector broadcast along axis 1, a maximum with a broadcast
  scalar constant), each generic in the extents.
-/
import Idealize.ShloMosaic.PureOps.Ideal.Laws
import Idealize.ShloMosaic.Lib.ValueIdx
import Idealize.ShloMosaic.Lib.ValueLayout
import Idealize.ShloMosaic.Lib.Pipeline.Value
import proofs.«138501_j9869834846413_1_alg».proof.Proof.LibPlainDot

noncomputable section

namespace Cert.Mlp

open Idealize.ShloMosaic Idealize.ShloMosaic.ValueIdx

/-- The value of the zero word at the extended reals (kept as the word: both programs splat the same one). -/
abbrev zeroWord : EReal := Ideal.ofBits .f32 0x00000000#32

/-- One dense layer on one row: entry j is (Σ k, x k · W (k, j)) + b j. -/
def denseRow {K N : Nat} (x : Fin K → EReal) (w : (⟨2, ![K, N]⟩ : Shape).Idx → EReal) (b : Fin N → EReal) :
    Fin N → EReal :=
  fun j => (∑ k : Fin K, x k * w (ix2 k j)) + b j

/-- The rectifier on one row: the larger of each entry and the zero word's value. -/
def reluRow {N : Nat} (h : Fin N → EReal) : Fin N → EReal := fun j => max (h j) zeroWord

/-- The perceptron's logit for one row of 512 features: 512 → 1000 → 500 → 250 → 1. -/
def logitRow (x : Fin 512 → EReal)
    (w1 : (⟨2, ![512, 1000]⟩ : Shape).Idx → EReal) (b1 : Fin 1000 → EReal)
    (w2 : (⟨2, ![1000, 500]⟩ : Shape).Idx → EReal) (b2 : Fin 500 → EReal)
    (w3 : (⟨2, ![500, 250]⟩ : Shape).Idx → EReal) (b3 : Fin 250 → EReal)
    (w4 : (⟨2, ![250, 1]⟩ : Shape).Idx → EReal) (b4 : Fin 1 → EReal) : EReal :=
  denseRow (reluRow (denseRow (reluRow (denseRow (reluRow (denseRow x w1 b1)) w2 b2)) w3 b3)) w4 b4 0

/-! ## A kernel's spelling of a layer, at one entry -/

/-- A matrix product into the zero accumulator plus a one-row bias broadcast down the rows, at entry (p, q): the dense
    layer of row p. The left operand is known along row p only. -/
theorem kernel_dense_apply {M K N : Nat} {φ₁ φ₂ : FTy}
    (d : DotDims ⟨2, ![M, K]⟩ ⟨2, ![K, N]⟩ ⟨2, ![M, N]⟩) (hd : d = DotDims.plain M K N)
    (h : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩)
    (p : Fin M) (row : Fin K → EReal) (hrow : ∀ k, h (ix2 p k) = row k) (q : Fin N) :
    addf (matmul d none h w (constant ⟨2, ![M, N]⟩ .f32 0x00000000#32)) (broadcastTo ⟨2, ![M, N]⟩ b hb) (ix2 p q)
      = denseRow row w (fun j => b (ix2 (0 : Fin 1) j)) q := by
  subst hd
  rw [addf_apply, broadcastTo_1b_ab_apply]
  unfold denseRow
  refine congrArg (· + b (ix2 (0 : Fin 1) q)) ?_
  refine (Cert.Lib.PlainDot.matmul_zero_apply M K N none h w p q).trans ?_
  exact Finset.sum_congr rfl fun k _ => by rw [hrow k]

/-- The same followed by the maximum with a splat of the zero word: the rectified layer of row p. -/
theorem kernel_relu_apply {M K N : Nat} {φ₁ φ₂ : FTy}
    (d : DotDims ⟨2, ![M, K]⟩ ⟨2, ![K, N]⟩ ⟨2, ![M, N]⟩) (hd : d = DotDims.plain M K N)
    (h : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩)
    (p : Fin M) (row : Fin K → EReal) (hrow : ∀ k, h (ix2 p k) = row k) (q : Fin N) :
    maximumf (addf (matmul d none h w (constant ⟨2, ![M, N]⟩ .f32 0x00000000#32)) (broadcastTo ⟨2, ![M, N]⟩ b hb))
        (broadcast ⟨2, ![M, N]⟩ (Scalar.ofBits (F := Ideal) .f32 0x00000000#32)) (ix2 p q)
      = reluRow (denseRow row w (fun j => b (ix2 (0 : Fin 1) j))) q := by
  rw [maximumf_apply, kernel_dense_apply d hd h w b hb p row hrow q]
  rfl

/-! ## A host program's spelling of a layer, at one entry -/

/-- A dot_general plus the bias vector broadcast along axis 1, at entry (p, q): the dense layer of row p. -/
theorem host_dense_apply {M K N : Nat} {φ₁ φ₂ : FTy}
    (d : DotDims ⟨2, ![M, K]⟩ ⟨2, ![K, N]⟩ ⟨2, ![M, N]⟩) (hd : d = DotDims.plain M K N)
    (h : FVec Ideal ⟨2, ![M, K]⟩ φ₁) (w : FVec Ideal ⟨2, ![K, N]⟩ φ₂) (b : FVec Ideal ⟨1, ![N]⟩ .f32)
    (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2))
    (p : Fin M) (row : Fin K → EReal) (hrow : ∀ k, h (ix2 p k) = row k) (q : Fin N) :
    addf (Host.dotGeneral d none h w)
        (broadcastInDim ⟨2, ![M, N]⟩ ![0, 1] hb2 (broadcastInDim ⟨2, ![1, N]⟩ ![1] hb1 b)) (ix2 p q)
      = denseRow row w (fun j => b (ix1 j)) q := by
  subst hd
  rw [addf_apply]
  have e2 : broadcastInDim ⟨2, ![M, N]⟩ ![0, 1] hb2 (broadcastInDim ⟨2, ![1, N]⟩ ![1] hb1 b) (ix2 p q)
      = broadcastInDim ⟨2, ![1, N]⟩ ![1] hb1 b (ix2 (0 : Fin 1) q) :=
    broadcastInDim_apply _ hb2 _ (ix2 p q) (ix2 (0 : Fin 1) q) (fun a => match a with
      | ⟨0, _⟩ => by show 0 = if (1 : Nat) = 1 then 0 else p.val; rw [if_pos rfl]
      | ⟨1, _⟩ => by
          show q.val = if N = 1 then 0 else q.val
          split
          · have := q.isLt; omega
          · rfl)
  have e1 : broadcastInDim ⟨2, ![1, N]⟩ ![1] hb1 b (ix2 (0 : Fin 1) q) = b (ix1 q) :=
    broadcastInDim_apply _ hb1 b (ix2 (0 : Fin 1) q) (ix1 q) (fun a => match a with
      | ⟨0, _⟩ => by
          show q.val = if N = 1 then 0 else q.val
          split
          · have := q.isLt; omega
          · rfl)
  rw [e2, e1]
  unfold denseRow
  refine congrArg (· + b (ix1 q)) ?_
  refine (Cert.Lib.PlainDot.dotGeneral_apply M K N none _ h w p q).trans ?_
  exact Finset.sum_congr rfl fun k _ => by rw [hrow k]

/-- The same followed by the maximum with the broadcast scalar zero constant: the rectified layer of row p. -/
theorem host_relu_apply {M K N : Nat} {φ₁ φ₂ : FTy}
    (d : DotDims ⟨2, ![M, K]⟩ ⟨2, ![K, N]⟩ ⟨2, ![M, N]⟩) (hd : d = DotDims.plain M K N)
    (h : FVec Ideal ⟨2, ![M, K]⟩ φ₁) (w : FVec Ideal ⟨2, ![K, N]⟩ φ₂) (b : FVec Ideal ⟨1, ![N]⟩ .f32)
    (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2))
    (hb0 : (⟨0, ![]⟩ : Shape).BroadcastsInDim ⟨2, ![M, N]⟩ (![] : Fin 0 → Fin 2))
    (p : Fin M) (row : Fin K → EReal) (hrow : ∀ k, h (ix2 p k) = row k) (q : Fin N) :
    maximumf (addf (Host.dotGeneral d none h w)
          (broadcastInDim ⟨2, ![M, N]⟩ ![0, 1] hb2 (broadcastInDim ⟨2, ![1, N]⟩ ![1] hb1 b)))
        (broadcastInDim ⟨2, ![M, N]⟩ ![] hb0 (constant (F := Ideal) ⟨0, ![]⟩ .f32 0x00000000#32)) (ix2 p q)
      = reluRow (denseRow row w (fun j => b (ix1 j))) q := by
  rw [maximumf_apply, host_dense_apply d hd h w b hb1 hb2 p row hrow q]
  have e0 : broadcastInDim ⟨2, ![M, N]⟩ ![] hb0 (constant (F := Ideal) ⟨0, ![]⟩ .f32 0x00000000#32) (ix2 p q)
      = constant (F := Ideal) ⟨0, ![]⟩ .f32 0x00000000#32 ix0 :=
    broadcastInDim_apply _ hb0 _ (ix2 p q) ix0 (fun a => a.elim0)
  rw [e0]
  rfl

end Cert.Mlp

end
-- ==== Proof.Region0.lean ====
/-
  What region 0 of the program leaves in its output array: the logit of every row of the batch.

  The region works through the 65536 rows in 32 blocks of 2048. At grid point t it is handed rows 2048·t … 2048·t + 2047
  of the feature matrix and the whole of each weight matrix and bias row; what it writes back is the 2048 × 1 column of
  those rows' logits (the body's four matrix products, bias additions and rectifiers, read one row at a time by the
  layer lemmas). A dense layer is row-local, so row p of block t is row 2048·t + p of the batch, and the 32 blocks tile
  the output column: the array ends as the column of all 65536 logits, as a function of the arrays the region found.
-/
import proofs.«138501_j9869834846413_1_alg».proof.Proof.Gen.KernelIdeal.Frame
import proofs.«138501_j9869834846413_1_alg».proof.Proof.MlpRow
import Idealize.ShloMosaic.Lib.Pipeline.Value

set_option maxRecDepth 16384

noncomputable section

namespace Cert.KernelIdeal.Region0

open Cert.KernelIdeal Cert.KernelIdeal.Gen Cert.Mlp
open Idealize.ShloMosaic Idealize.ShloMosaic.TcCoe Idealize.ShloMosaic.ValueIdx Idealize.SL.Sem
open Idealize.ShloMosaic.Pipeline (Dat Cfg Window)

/-- The offset of every access of the body: the origin. -/
theorem origin : (![0, 0] : Fin 2 → Nat) = fun _ => 0 := funext fun a => by fin_cases a <;> rfl

/-! ## One block: the body's result at row p is the logit of the block's row p -/

theorem block_apply (x0 : Vec Ideal S2048x512 .f32) (x1 : Vec Ideal S512x1000 .bf16) (x2 : Vec Ideal S1x1000 .f32)
    (x3 : Vec Ideal S1000x500 .bf16) (x4 : Vec Ideal S1x500 .f32) (x5 : Vec Ideal S500x250 .bf16)
    (x6 : Vec Ideal S1x250 .f32) (x7 : Vec Ideal S250x1 .bf16) (x8 : Vec Ideal S1x1 .f32) (p : Fin 2048) :
    out0_9 x0 x1 x2 x3 x4 x5 x6 x7 x8 (ix2 p (0 : Fin 1))
      = logitRow (fun k => x0 (ix2 p k)) x1 (fun j => x2 (ix2 (0 : Fin 1) j)) x3 (fun j => x4 (ix2 (0 : Fin 1) j))
          x5 (fun j => x6 (ix2 (0 : Fin 1) j)) x7 (fun j => x8 (ix2 (0 : Fin 1) j)) := by
  unfold out0_9
  rw [View.canon_unit_zero origin]
  simp only [View.ld_unit_zero (S := S2048x512) origin, View.ld_unit_zero (S := S512x1000) origin,
    View.ld_unit_zero (S := S1x1000) origin, View.ld_unit_zero (S := S1000x500) origin,
    View.ld_unit_zero (S := S1x500) origin, View.ld_unit_zero (S := S500x250) origin,
    View.ld_unit_zero (S := S1x250) origin, View.ld_unit_zero (S := S250x1) origin,
    View.ld_unit_zero (S := S1x1) origin]
  unfold k0_pay1 k0_pay2 logitRow
  simp only [shapeCast_self]
  exact kernel_dense_apply (φ₁ := .bf16) (φ₂ := .bf16) dot_S2048x250_S250x1_S2048x1_1_0_0_1_n_n rfl _ x7 x8 _ p _
    (fun k => kernel_relu_apply (φ₁ := .bf16) (φ₂ := .bf16) dot_S2048x500_S500x250_S2048x250_1_0_0_1_n_n rfl _ x5 x6 _ p _
      (fun k => kernel_relu_apply (φ₁ := .bf16) (φ₂ := .bf16) dot_S2048x1000_S1000x500_S2048x500_1_0_0_1_n_n rfl _ x3 x4 _ p _
        (fun k => kernel_relu_apply (φ₁ := .bf16) (φ₂ := .bf16) dot_S2048x512_S512x1000_S2048x1000_1_0_0_1_n_n rfl _ x1 x2 _ p _
          (fun k => rfl) k) k) k) 0

/-! ## The arrays as the region finds them, by their literal types -/

variable (V : (c : Dev nD) → (b : Ref sig .tc) → Buf (Elt Ideal) ((c : Thread nD τ).loc b))

abbrev aX (c : Dev nD) : S65536x512.Idx → EReal := V c (Pipeline.arrRef spec0 0)
abbrev aW1 (c : Dev nD) : S512x1000.Idx → EReal := V c (Pipeline.arrRef spec0 1)
abbrev aB1 (c : Dev nD) : S1x1000.Idx → EReal := V c (Pipeline.arrRef spec0 2)
abbrev aW2 (c : Dev nD) : S1000x500.Idx → EReal := V c (Pipeline.arrRef spec0 3)
abbrev aB2 (c : Dev nD) : S1x500.Idx → EReal := V c (Pipeline.arrRef spec0 4)
abbrev aW3 (c : Dev nD) : S500x250.Idx → EReal := V c (Pipeline.arrRef spec0 5)
abbrev aB3 (c : Dev nD) : S1x250.Idx → EReal := V c (Pipeline.arrRef spec0 6)
abbrev aW4 (c : Dev nD) : S250x1.Idx → EReal := V c (Pipeline.arrRef spec0 7)
abbrev aB4 (c : Dev nD) : S1x1.Idx → EReal := V c (Pipeline.arrRef spec0 8)

/-- The column of all 65536 logits, of the arrays the region finds. -/
def logits (c : Dev nD) : S65536x1.Idx → EReal := fun i =>
  logitRow (fun k => aX V c (ix2 (i 0) k)) (aW1 V c) (fun j => aB1 V c (ix2 (0 : Fin 1) j)) (aW2 V c)
    (fun j => aB2 V c (ix2 (0 : Fin 1) j)) (aW3 V c) (fun j => aB3 V c (ix2 (0 : Fin 1) j)) (aW4 V c)
    (fun j => aB4 V c (ix2 (0 : Fin 1) j))

/-! ## The printed index maps over the grid -/

/-- Block t of the features and of the output start at row block t; every other window is its whole array. -/
theorem idx_facts : ∀ t : Fin cfg0.N,
    win0_0.index t (0 : Fin 2) = win0_9.index t (0 : Fin 2) ∧ win0_0.index t (1 : Fin 2) = 0
    ∧ win0_9.index t (1 : Fin 2) = 0 ∧ win0_9.index t (0 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The blocks of the inputs -/

theorem blk_W1 (c : Dev nD) (t : Fin cfg0.N) : (iblk0 V c 1 t : S512x1000.Idx → EReal) = aW1 V c := by
  funext y
  show aW1 V c (((cfg0.win 1).blk t).view.emb y) = aW1 V c y
  refine congrArg (aW1 V c) (funext fun a => Fin.ext ?_)
  have h := idx_facts t
  match a with
  | ⟨0, _⟩ => show win0_1.index t (0 : Fin 2) * 512 + 1 * (y 0).val = (y 0).val; omega
  | ⟨1, _⟩ => show win0_1.index t (1 : Fin 2) * 1000 + 1 * (y 1).val = (y 1).val; omega

theorem blk_B1 (c : Dev nD) (t : Fin cfg0.N) : (iblk0 V c 2 t : S1x1000.Idx → EReal) = aB1 V c := by
  funext y
  show aB1 V c (((cfg0.win 2).blk t).view.emb y) = aB1 V c y
  refine congrArg (aB1 V c) (funext fun a => Fin.ext ?_)
  have h := idx_facts t
  match a with
  | ⟨0, _⟩ => show win0_2.index t (0 : Fin 2) * 1 + 1 * (y 0).val = (y 0).val; omega
  | ⟨1, _⟩ => show win0_2.index t (1 : Fin 2) * 1000 + 1 * (y 1).val = (y 1).val; omega

theorem blk_W2 (c : Dev nD) (t : Fin cfg0.N) : (iblk0 V c 3 t : S1000x500.Idx → EReal) = aW2 V c := by
  funext y
  show aW2 V c (((cfg0.win 3).blk t).view.emb y) = aW2 V c y
  refine congrArg (aW2 V c) (funext fun a => Fin.ext ?_)
  have h := idx_facts t
  match a with
  | ⟨0, _⟩ => show win0_3.index t (0 : Fin 2) * 1000 + 1 * (y 0).val = (y 0).val; omega
  | ⟨1, _⟩ => show win0_3.index t (1 : Fin 2) * 500 + 1 * (y 1).val = (y 1).val; omega

theorem blk_B2 (c : Dev nD) (t : Fin cfg0.N) : (iblk0 V c 4 t : S1x500.Idx → EReal) = aB2 V c := by
  funext y
  show aB2 V c (((cfg0.win 4).blk t).view.emb y) = aB2 V c y
  refine congrArg (aB2 V c) (funext fun a => Fin.ext ?_)
  have h := idx_facts t
  match a with
  | ⟨0, _⟩ => show win0_4.index t (0 : Fin 2) * 1 + 1 * (y 0).val = (y 0).val; omega
  | ⟨1, _⟩ => show win0_4.index t (1 : Fin 2) * 500 + 1 * (y 1).val = (y 1).val; omega

theorem blk_W3 (c : Dev nD) (t : Fin cfg0.N) : (iblk0 V c 5 t : S500x250.Idx → EReal) = aW3 V c := by
  funext y
  show aW3 V c (((cfg0.win 5).blk t).view.emb y) = aW3 V c y
  refine congrArg (aW3 V c) (funext fun a => Fin.ext ?_)
  have h := idx_facts t
  match a with
  | ⟨0, _⟩ => show win0_5.index t (0 : Fin 2) * 500 + 1 * (y 0).val = (y 0).val; omega
  | ⟨1, _⟩ => show win0_5.index t (1 : Fin 2) * 250 + 1 * (y 1).val = (y 1).val; omega

theorem blk_B3 (c : Dev nD) (t : Fin cfg0.N) : (iblk0 V c 6 t : S1x250.Idx → EReal) = aB3 V c := by
  funext y
  show aB3 V c (((cfg0.win 6).blk t).view.emb y) = aB3 V c y
  refine congrArg (aB3 V c) (funext fun a => Fin.ext ?_)
  have h := idx_facts t
  match a with
  | ⟨0, _⟩ => show win0_6.index t (0 : Fin 2) * 1 + 1 * (y 0).val = (y 0).val; omega
  | ⟨1, _⟩ => show win0_6.index t (1 : Fin 2) * 250 + 1 * (y 1).val = (y 1).val; omega

theorem blk_W4 (c : Dev nD) (t : Fin cfg0.N) : (iblk0 V c 7 t : S250x1.Idx → EReal) = aW4 V c := by
  funext y
  show aW4 V c (((cfg0.win 7).blk t).view.emb y) = aW4 V c y
  refine congrArg (aW4 V c) (funext fun a => Fin.ext ?_)
  have h := idx_facts t
  match a with
  | ⟨0, _⟩ => show win0_7.index t (0 : Fin 2) * 250 + 1 * (y 0).val = (y 0).val; omega
  | ⟨1, _⟩ => show win0_7.index t (1 : Fin 2) * 1 + 1 * (y 1).val = (y 1).val; omega

theorem blk_B4 (c : Dev nD) (t : Fin cfg0.N) : (iblk0 V c 8 t : S1x1.Idx → EReal) = aB4 V c := by
  funext y
  show aB4 V c (((cfg0.win 8).blk t).view.emb y) = aB4 V c y
  refine congrArg (aB4 V c) (funext fun a => Fin.ext ?_)
  have h := idx_facts t
  match a with
  | ⟨0, _⟩ => show win0_8.index t (0 : Fin 2) * 1 + 1 * (y 0).val = (y 0).val; omega
  | ⟨1, _⟩ => show win0_8.index t (1 : Fin 2) * 1 + 1 * (y 1).val = (y 1).val; omega

/-- Row p of the features' block t, entry k, is the batch's row that the output block's row p lands on. -/
theorem blk_X (c : Dev nD) (t : Fin cfg0.N) (p : Fin 2048) (k : Fin 512) :
    (iblk0 V c 0 t : S2048x512.Idx → EReal) (ix2 p k)
      = aX V c (ix2 ((((cfg0.win 9).blk t).view.emb (ix2 p (0 : Fin 1)) : S65536x1.Idx) 0) k) := by
  show aX V c (((cfg0.win 0).blk t).view.emb (ix2 p k)) = _
  refine congrArg (aX V c) (funext fun a => Fin.ext ?_)
  have h := idx_facts t
  match a with
  | ⟨0, _⟩ =>
    show win0_0.index t (0 : Fin 2) * 2048 + 1 * p.val = win0_9.index t (0 : Fin 2) * 2048 + 1 * p.val
    omega
  | ⟨1, _⟩ => show win0_0.index t (1 : Fin 2) * 512 + 1 * k.val = k.val; omega

/-! ## What a point writes back, and the array after the run -/

/-- Point t writes back block t of the column of logits. -/
theorem flushed_eq (c : Dev nD) (t : Fin cfg0.N) :
    (dat0 V c).flushed 9 t = ((cfg0.win 9).blk t).view.read (Elt Ideal) (logits V c) := by
  show (cfg0.win 9).cut (grid0.coords t) ((dat0 V c).after 9 t) = _
  rw [after0_9]
  funext j
  obtain ⟨p, q, rfl⟩ : ∃ (p : Fin 2048) (q : Fin 1), j = ix2 p q := ⟨j 0, j 1, eq_ix2 j⟩
  obtain rfl : q = 0 := Subsingleton.elim _ _
  show out0_9 (iblk0 V c 0 t) (iblk0 V c 1 t) (iblk0 V c 2 t) (iblk0 V c 3 t) (iblk0 V c 4 t) (iblk0 V c 5 t)
      (iblk0 V c 6 t) (iblk0 V c 7 t) (iblk0 V c 8 t) (ix2 p (0 : Fin 1))
    = logits V c (((cfg0.win 9).blk t).view.emb (ix2 p (0 : Fin 1)))
  refine (block_apply _ _ _ _ _ _ _ _ _ p).trans ?_
  unfold logits
  rw [blk_W1 V c t, blk_B1 V c t, blk_W2 V c t, blk_B2 V c t, blk_W3 V c t, blk_B3 V c t, blk_W4 V c t, blk_B4 V c t]
  exact congrArg (fun r => logitRow r (aW1 V c) (fun j => aB1 V c (ix2 (0 : Fin 1) j)) (aW2 V c)
    (fun j => aB2 V c (ix2 (0 : Fin 1) j)) (aW3 V c) (fun j => aB3 V c (ix2 (0 : Fin 1) j)) (aW4 V c)
    (fun j => aB4 V c (ix2 (0 : Fin 1) j))) (funext fun k => blk_X V c t p k)

/-- An index of the output column is in point t's block iff its row is among the block's 2048 rows. -/
theorem mem_blk (t : Fin cfg0.N) (i : S65536x1.Idx) :
    i ∈ ((cfg0.win 9).blk t).view.set ↔ ∀ a : Fin 2, win0_9.index t a * S2048x1.size a ≤ (i a).val
      ∧ (i a).val < win0_9.index t a * S2048x1.size a + S2048x1.size a := by
  show i ∈ ((View.whole (Pipeline.arrRef spec0 9)).slice (win0_9.rect t)).set ↔ _
  rw [View.set_slice_whole, Rect.mem_set_unit]
  exact Iff.rfl

/-- The 32 blocks tile the column: row r is in block r / 2048. -/
theorem cover (i : S65536x1.Idx) :
    ∃ t : Fin cfg0.N, (cfg0.win 9).flush t = true ∧ i ∈ ((cfg0.win 9).blk t).view.set := by
  have hi0 : (i 0).val < 65536 := (i 0).isLt
  have hi1 : (i 1).val < 1 := (i 1).isLt
  refine ⟨⟨(i 0).val / 2048, by show (i 0).val / 2048 < 32; omega⟩, flush0_9 _, ?_⟩
  rw [mem_blk]
  intro a
  obtain ⟨-, -, h1, h0, -⟩ := idx_facts ⟨(i 0).val / 2048, by show (i 0).val / 2048 < 32; omega⟩
  match a with
  | ⟨0, _⟩ =>
    show win0_9.index _ (0 : Fin 2) * 2048 ≤ (i 0).val ∧ (i 0).val < win0_9.index _ (0 : Fin 2) * 2048 + 2048
    rw [h0]; show (i 0).val / 2048 * 2048 ≤ (i 0).val ∧ (i 0).val < (i 0).val / 2048 * 2048 + 2048; omega
  | ⟨1, _⟩ =>
    show win0_9.index _ (1 : Fin 2) * 1 ≤ (i 1).val ∧ (i 1).val < win0_9.index _ (1 : Fin 2) * 1 + 1
    rw [h1]; omega

/-- The output array after the region: the column of all 65536 logits. -/
theorem final (c : Dev nD) : (dat0 V c).arrAt 9 cfg0.N = logits V c :=
  (dat0 V c).arrAt_eq_of_cover 9 (logits V c) (fun t _ => flushed_eq V c t) cover

end Cert.KernelIdeal.Region0

end
-- ==== Proof.Region1.lean ====
/-
  What region 1 of the program leaves in its output array: the logit of every row of the batch.

  The region works through the 65536 rows in 32 blocks of 2048. At grid point t it is handed rows 2048·t … 2048·t + 2047
  of the feature matrix and the whole of each weight matrix and bias row; what it writes back is the 2048 × 1 column of
  those rows' logits (the body's four matrix products, bias additions and rectifiers, read one row at a time by the
  layer lemmas). A dense layer is row-local, so row p of block t is row 2048·t + p of the batch, and the 32 blocks tile
  the output column: the array ends as the column of all 65536 logits, as a function of the arrays the region found.
-/
import proofs.«138501_j9869834846413_1_alg».proof.Proof.Gen.KernelIdeal.Frame
import proofs.«138501_j9869834846413_1_alg».proof.Proof.MlpRow
import Idealize.ShloMosaic.Lib.Pipeline.Value

set_option maxRecDepth 16384

noncomputable section

namespace Cert.KernelIdeal.Region1

open Cert.KernelIdeal Cert.KernelIdeal.Gen Cert.Mlp
open Idealize.ShloMosaic Idealize.ShloMosaic.TcCoe Idealize.ShloMosaic.ValueIdx Idealize.SL.Sem
open Idealize.ShloMosaic.Pipeline (Dat Cfg Window)

/-- The offset of every access of the body: the origin. -/
theorem origin : (![0, 0] : Fin 2 → Nat) = fun _ => 0 := funext fun a => by fin_cases a <;> rfl

/-! ## One block: the body's result at row p is the logit of the block's row p -/

theorem block_apply (x0 : Vec Ideal S2048x512 .f32) (x1 : Vec Ideal S512x1000 .bf16) (x2 : Vec Ideal S1x1000 .f32)
    (x3 : Vec Ideal S1000x500 .bf16) (x4 : Vec Ideal S1x500 .f32) (x5 : Vec Ideal S500x250 .bf16)
    (x6 : Vec Ideal S1x250 .f32) (x7 : Vec Ideal S250x1 .bf16) (x8 : Vec Ideal S1x1 .f32) (p : Fin 2048) :
    out1_9 x0 x1 x2 x3 x4 x5 x6 x7 x8 (ix2 p (0 : Fin 1))
      = logitRow (fun k => x0 (ix2 p k)) x1 (fun j => x2 (ix2 (0 : Fin 1) j)) x3 (fun j => x4 (ix2 (0 : Fin 1) j))
          x5 (fun j => x6 (ix2 (0 : Fin 1) j)) x7 (fun j => x8 (ix2 (0 : Fin 1) j)) := by
  unfold out1_9
  rw [View.canon_unit_zero origin]
  simp only [View.ld_unit_zero (S := S2048x512) origin, View.ld_unit_zero (S := S512x1000) origin,
    View.ld_unit_zero (S := S1x1000) origin, View.ld_unit_zero (S := S1000x500) origin,
    View.ld_unit_zero (S := S1x500) origin, View.ld_unit_zero (S := S500x250) origin,
    View.ld_unit_zero (S := S1x250) origin, View.ld_unit_zero (S := S250x1) origin,
    View.ld_unit_zero (S := S1x1) origin]
  unfold k1_pay1 k1_pay2 logitRow
  simp only [shapeCast_self]
  exact kernel_dense_apply (φ₁ := .bf16) (φ₂ := .bf16) dot_S2048x250_S250x1_S2048x1_1_0_0_1_n_n rfl _ x7 x8 _ p _
    (fun k => kernel_relu_apply (φ₁ := .bf16) (φ₂ := .bf16) dot_S2048x500_S500x250_S2048x250_1_0_0_1_n_n rfl _ x5 x6 _ p _
      (fun k => kernel_relu_apply (φ₁ := .bf16) (φ₂ := .bf16) dot_S2048x1000_S1000x500_S2048x500_1_0_0_1_n_n rfl _ x3 x4 _ p _
        (fun k => kernel_relu_apply (φ₁ := .bf16) (φ₂ := .bf16) dot_S2048x512_S512x1000_S2048x1000_1_0_0_1_n_n rfl _ x1 x2 _ p _
          (fun k => rfl) k) k) k) 0

/-! ## The arrays as the region finds them, by their literal types -/

variable (V : (c : Dev nD) → (b : Ref sig .tc) → Buf (Elt Ideal) ((c : Thread nD τ).loc b))

abbrev aX (c : Dev nD) : S65536x512.Idx → EReal := V c (Pipeline.arrRef spec1 0)
abbrev aW1 (c : Dev nD) : S512x1000.Idx → EReal := V c (Pipeline.arrRef spec1 1)
abbrev aB1 (c : Dev nD) : S1x1000.Idx → EReal := V c (Pipeline.arrRef spec1 2)
abbrev aW2 (c : Dev nD) : S1000x500.Idx → EReal := V c (Pipeline.arrRef spec1 3)
abbrev aB2 (c : Dev nD) : S1x500.Idx → EReal := V c (Pipeline.arrRef spec1 4)
abbrev aW3 (c : Dev nD) : S500x250.Idx → EReal := V c (Pipeline.arrRef spec1 5)
abbrev aB3 (c : Dev nD) : S1x250.Idx → EReal := V c (Pipeline.arrRef spec1 6)
abbrev aW4 (c : Dev nD) : S250x1.Idx → EReal := V c (Pipeline.arrRef spec1 7)
abbrev aB4 (c : Dev nD) : S1x1.Idx → EReal := V c (Pipeline.arrRef spec1 8)

/-- The column of all 65536 logits, of the arrays the region finds. -/
def logits (c : Dev nD) : S65536x1.Idx → EReal := fun i =>
  logitRow (fun k => aX V c (ix2 (i 0) k)) (aW1 V c) (fun j => aB1 V c (ix2 (0 : Fin 1) j)) (aW2 V c)
    (fun j => aB2 V c (ix2 (0 : Fin 1) j)) (aW3 V c) (fun j => aB3 V c (ix2 (0 : Fin 1) j)) (aW4 V c)
    (fun j => aB4 V c (ix2 (0 : Fin 1) j))

/-! ## The printed index maps over the grid -/

/-- Block t of the features and of the output start at row block t; every other window is its whole array. -/
theorem idx_facts : ∀ t : Fin cfg1.N,
    win1_0.index t (0 : Fin 2) = win1_9.index t (0 : Fin 2) ∧ win1_0.index t (1 : Fin 2) = 0
    ∧ win1_9.index t (1 : Fin 2) = 0 ∧ win1_9.index t (0 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-! ## The blocks of the inputs -/

theorem blk_W1 (c : Dev nD) (t : Fin cfg1.N) : (iblk1 V c 1 t : S512x1000.Idx → EReal) = aW1 V c := by
  funext y
  show aW1 V c (((cfg1.win 1).blk t).view.emb y) = aW1 V c y
  refine congrArg (aW1 V c) (funext fun a => Fin.ext ?_)
  have h := idx_facts t
  match a with
  | ⟨0, _⟩ => show win1_1.index t (0 : Fin 2) * 512 + 1 * (y 0).val = (y 0).val; omega
  | ⟨1, _⟩ => show win1_1.index t (1 : Fin 2) * 1000 + 1 * (y 1).val = (y 1).val; omega

theorem blk_B1 (c : Dev nD) (t : Fin cfg1.N) : (iblk1 V c 2 t : S1x1000.Idx → EReal) = aB1 V c := by
  funext y
  show aB1 V c (((cfg1.win 2).blk t).view.emb y) = aB1 V c y
  refine congrArg (aB1 V c) (funext fun a => Fin.ext ?_)
  have h := idx_facts t
  match a with
  | ⟨0, _⟩ => show win1_2.index t (0 : Fin 2) * 1 + 1 * (y 0).val = (y 0).val; omega
  | ⟨1, _⟩ => show win1_2.index t (1 : Fin 2) * 1000 + 1 * (y 1).val = (y 1).val; omega

theorem blk_W2 (c : Dev nD) (t : Fin cfg1.N) : (iblk1 V c 3 t : S1000x500.Idx → EReal) = aW2 V c := by
  funext y
  show aW2 V c (((cfg1.win 3).blk t).view.emb y) = aW2 V c y
  refine congrArg (aW2 V c) (funext fun a => Fin.ext ?_)
  have h := idx_facts t
  match a with
  | ⟨0, _⟩ => show win1_3.index t (0 : Fin 2) * 1000 + 1 * (y 0).val = (y 0).val; omega
  | ⟨1, _⟩ => show win1_3.index t (1 : Fin 2) * 500 + 1 * (y 1).val = (y 1).val; omega

theorem blk_B2 (c : Dev nD) (t : Fin cfg1.N) : (iblk1 V c 4 t : S1x500.Idx → EReal) = aB2 V c := by
  funext y
  show aB2 V c (((cfg1.win 4).blk t).view.emb y) = aB2 V c y
  refine congrArg (aB2 V c) (funext fun a => Fin.ext ?_)
  have h := idx_facts t
  match a with
  | ⟨0, _⟩ => show win1_4.index t (0 : Fin 2) * 1 + 1 * (y 0).val = (y 0).val; omega
  | ⟨1, _⟩ => show win1_4.index t (1 : Fin 2) * 500 + 1 * (y 1).val = (y 1).val; omega

theorem blk_W3 (c : Dev nD) (t : Fin cfg1.N) : (iblk1 V c 5 t : S500x250.Idx → EReal) = aW3 V c := by
  funext y
  show aW3 V c (((cfg1.win 5).blk t).view.emb y) = aW3 V c y
  refine congrArg (aW3 V c) (funext fun a => Fin.ext ?_)
  have h := idx_facts t
  match a with
  | ⟨0, _⟩ => show win1_5.index t (0 : Fin 2) * 500 + 1 * (y 0).val = (y 0).val; omega
  | ⟨1, _⟩ => show win1_5.index t (1 : Fin 2) * 250 + 1 * (y 1).val = (y 1).val; omega

theorem blk_B3 (c : Dev nD) (t : Fin cfg1.N) : (iblk1 V c 6 t : S1x250.Idx → EReal) = aB3 V c := by
  funext y
  show aB3 V c (((cfg1.win 6).blk t).view.emb y) = aB3 V c y
  refine congrArg (aB3 V c) (funext fun a => Fin.ext ?_)
  have h := idx_facts t
  match a with
  | ⟨0, _⟩ => show win1_6.index t (0 : Fin 2) * 1 + 1 * (y 0).val = (y 0).val; omega
  | ⟨1, _⟩ => show win1_6.index t (1 : Fin 2) * 250 + 1 * (y 1).val = (y 1).val; omega

theorem blk_W4 (c : Dev nD) (t : Fin cfg1.N) : (iblk1 V c 7 t : S250x1.Idx → EReal) = aW4 V c := by
  funext y
  show aW4 V c (((cfg1.win 7).blk t).view.emb y) = aW4 V c y
  refine congrArg (aW4 V c) (funext fun a => Fin.ext ?_)
  have h := idx_facts t
  match a with
  | ⟨0, _⟩ => show win1_7.index t (0 : Fin 2) * 250 + 1 * (y 0).val = (y 0).val; omega
  | ⟨1, _⟩ => show win1_7.index t (1 : Fin 2) * 1 + 1 * (y 1).val = (y 1).val; omega

theorem blk_B4 (c : Dev nD) (t : Fin cfg1.N) : (iblk1 V c 8 t : S1x1.Idx → EReal) = aB4 V c := by
  funext y
  show aB4 V c (((cfg1.win 8).blk t).view.emb y) = aB4 V c y
  refine congrArg (aB4 V c) (funext fun a => Fin.ext ?_)
  have h := idx_facts t
  match a with
  | ⟨0, _⟩ => show win1_8.index t (0 : Fin 2) * 1 + 1 * (y 0).val = (y 0).val; omega
  | ⟨1, _⟩ => show win1_8.index t (1 : Fin 2) * 1 + 1 * (y 1).val = (y 1).val; omega

/-- Row p of the features' block t, entry k, is the batch's row that the output block's row p lands on. -/
theorem blk_X (c : Dev nD) (t : Fin cfg1.N) (p : Fin 2048) (k : Fin 512) :
    (iblk1 V c 0 t : S2048x512.Idx → EReal) (ix2 p k)
      = aX V c (ix2 ((((cfg1.win 9).blk t).view.emb (ix2 p (0 : Fin 1)) : S65536x1.Idx) 0) k) := by
  show aX V c (((cfg1.win 0).blk t).view.emb (ix2 p k)) = _
  refine congrArg (aX V c) (funext fun a => Fin.ext ?_)
  have h := idx_facts t
  match a with
  | ⟨0, _⟩ =>
    show win1_0.index t (0 : Fin 2) * 2048 + 1 * p.val = win1_9.index t (0 : Fin 2) * 2048 + 1 * p.val
    omega
  | ⟨1, _⟩ => show win1_0.index t (1 : Fin 2) * 512 + 1 * k.val = k.val; omega

/-! ## What a point writes back, and the array after the run -/

/-- Point t writes back block t of the column of logits. -/
theorem flushed_eq (c : Dev nD) (t : Fin cfg1.N) :
    (dat1 V c).flushed 9 t = ((cfg1.win 9).blk t).view.read (Elt Ideal) (logits V c) := by
  show (cfg1.win 9).cut (grid1.coords t) ((dat1 V c).after 9 t) = _
  rw [after1_9]
  funext j
  obtain ⟨p, q, rfl⟩ : ∃ (p : Fin 2048) (q : Fin 1), j = ix2 p q := ⟨j 0, j 1, eq_ix2 j⟩
  obtain rfl : q = 0 := Subsingleton.elim _ _
  show out1_9 (iblk1 V c 0 t) (iblk1 V c 1 t) (iblk1 V c 2 t) (iblk1 V c 3 t) (iblk1 V c 4 t) (iblk1 V c 5 t)
      (iblk1 V c 6 t) (iblk1 V c 7 t) (iblk1 V c 8 t) (ix2 p (0 : Fin 1))
    = logits V c (((cfg1.win 9).blk t).view.emb (ix2 p (0 : Fin 1)))
  refine (block_apply _ _ _ _ _ _ _ _ _ p).trans ?_
  unfold logits
  rw [blk_W1 V c t, blk_B1 V c t, blk_W2 V c t, blk_B2 V c t, blk_W3 V c t, blk_B3 V c t, blk_W4 V c t, blk_B4 V c t]
  exact congrArg (fun r => logitRow r (aW1 V c) (fun j => aB1 V c (ix2 (0 : Fin 1) j)) (aW2 V c)
    (fun j => aB2 V c (ix2 (0 : Fin 1) j)) (aW3 V c) (fun j => aB3 V c (ix2 (0 : Fin 1) j)) (aW4 V c)
    (fun j => aB4 V c (ix2 (0 : Fin 1) j))) (funext fun k => blk_X V c t p k)

/-- An index of the output column is in point t's block iff its row is among the block's 2048 rows. -/
theorem mem_blk (t : Fin cfg1.N) (i : S65536x1.Idx) :
    i ∈ ((cfg1.win 9).blk t).view.set ↔ ∀ a : Fin 2, win1_9.index t a * S2048x1.size a ≤ (i a).val
      ∧ (i a).val < win1_9.index t a * S2048x1.size a + S2048x1.size a := by
  show i ∈ ((View.whole (Pipeline.arrRef spec1 9)).slice (win1_9.rect t)).set ↔ _
  rw [View.set_slice_whole, Rect.mem_set_unit]
  exact Iff.rfl

/-- The 32 blocks tile the column: row r is in block r / 2048. -/
theorem cover (i : S65536x1.Idx) :
    ∃ t : Fin cfg1.N, (cfg1.win 9).flush t = true ∧ i ∈ ((cfg1.win 9).blk t).view.set := by
  have hi0 : (i 0).val < 65536 := (i 0).isLt
  have hi1 : (i 1).val < 1 := (i 1).isLt
  refine ⟨⟨(i 0).val / 2048, by show (i 0).val / 2048 < 32; omega⟩, flush1_9 _, ?_⟩
  rw [mem_blk]
  intro a
  obtain ⟨-, -, h1, h0, -⟩ := idx_facts ⟨(i 0).val / 2048, by show (i 0).val / 2048 < 32; omega⟩
  match a with
  | ⟨0, _⟩ =>
    show win1_9.index _ (0 : Fin 2) * 2048 ≤ (i 0).val ∧ (i 0).val < win1_9.index _ (0 : Fin 2) * 2048 + 2048
    rw [h0]; show (i 0).val / 2048 * 2048 ≤ (i 0).val ∧ (i 0).val < (i 0).val / 2048 * 2048 + 2048; omega
  | ⟨1, _⟩ =>
    show win1_9.index _ (1 : Fin 2) * 1 ≤ (i 1).val ∧ (i 1).val < win1_9.index _ (1 : Fin 2) * 1 + 1
    rw [h1]; omega

/-- The output array after the region: the column of all 65536 logits. -/
theorem final (c : Dev nD) : (dat1 V c).arrAt 9 cfg1.N = logits V c :=
  (dat1 V c).arrAt_eq_of_cover 9 (logits V c) (fun t _ => flushed_eq V c t) cover

end Cert.KernelIdeal.Region1

end
-- ==== Proof.Batch.lean ====
/-
  The logits of the whole batch as one function of the inputs, and a column read as a vector.

  Entry r of the vector of logits is the perceptron's logit of row r of the feature matrix, with the biases given as
  plain vectors. A 65536 × 1 column reshaped to a vector of 65536 entries reads, at r, the column's entry (r, 0).
-/
import proofs.«138501_j9869834846413_1_alg».proof.Proof.MlpRow

noncomputable section

namespace Cert.Mlp

open Idealize.ShloMosaic Idealize.ShloMosaic.ValueIdx

/-- The vector of the batch's logits: entry r is the logit of row r of x. -/
def logitsOf (x : (⟨2, ![65536, 512]⟩ : Shape).Idx → EReal)
    (w1 : (⟨2, ![512, 1000]⟩ : Shape).Idx → EReal) (b1 : (⟨1, ![1000]⟩ : Shape).Idx → EReal)
    (w2 : (⟨2, ![1000, 500]⟩ : Shape).Idx → EReal) (b2 : (⟨1, ![500]⟩ : Shape).Idx → EReal)
    (w3 : (⟨2, ![500, 250]⟩ : Shape).Idx → EReal) (b3 : (⟨1, ![250]⟩ : Shape).Idx → EReal)
    (w4 : (⟨2, ![250, 1]⟩ : Shape).Idx → EReal) (b4 : (⟨1, ![1]⟩ : Shape).Idx → EReal) :
    (⟨1, ![65536]⟩ : Shape).Idx → EReal :=
  fun i => logitRow (fun k => x (ix2 (i 0) k)) w1 (fun j => b1 (ix1 j)) w2 (fun j => b2 (ix1 j))
    w3 (fun j => b3 (ix1 j)) w4 (fun j => b4 (ix1 j))

/-- An `[a, 1]` column cast to `[a]` reads, at `r`, the column at `(r, 0)`. -/
theorem shapeCast_col_apply {α : Type} {a : ℕ} (x : (⟨2, ![a, 1]⟩ : Shape).Idx → α)
    (h : (⟨2, ![a, 1]⟩ : Shape).ShapeCasts ⟨1, ![a]⟩) (r : Fin a) :
    shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

end Cert.Mlp

end
-- ==== Proof.Loss.lean ====
/-
  The two losses of the discriminator, as a host program spells them, as functions of the two vectors of logits.

  softplus z = log (1 + exp z), spelt stably: max z 0 + log1p (exp (−|z − 0|)), with the guard that returns z + 0 where
  z − 0 differs from itself (a not-a-number test: never taken at the extended reals, and the same on both sides anyway).
  The generator's loss is the sum over the batch of softplus (−z_fake); the discriminator's is the sum over the batch of
  softplus (−z_real) + softplus (z_fake). Both programs of the certificate end with exactly these operations, so each
  is stated once, at any float instance, and the two programs meet by applying it to equal logits.
-/
import Idealize.ShloMosaic.PureOps.Ideal.Laws

noncomputable section

namespace Cert.Mlp

open Idealize.ShloMosaic

variable {F : FTy → Type} [FloatOps F]

/-- The batch as a vector shape, and the scalar shape. -/
abbrev SBatch : Shape := ⟨1, ![65536]⟩
abbrev SScalar : Shape := ⟨0, ![]⟩

/-- softplus over the batch, operation by operation as the host lowers it. -/
def softplus (hb : SScalar.BroadcastsInDim SBatch (![] : Fin 0 → Fin SBatch.rank)) (z : FVec F SBatch .f32) :
    FVec F SBatch .f32 :=
  select
    (cmpf .une (subf z (broadcastInDim SBatch ![] hb (constant SScalar .f32 0x00000000#32)))
      (subf z (broadcastInDim SBatch ![] hb (constant SScalar .f32 0x00000000#32))))
    (addf z (broadcastInDim SBatch ![] hb (constant SScalar .f32 0x00000000#32)))
    (addf (maximumf z (broadcastInDim SBatch ![] hb (constant SScalar .f32 0x00000000#32)))
      (Host.log1p (Host.exp (Host.negf (Host.absf
        (subf z (broadcastInDim SBatch ![] hb (constant SScalar .f32 0x00000000#32))))))))

/-- The generator's loss: the sum over the batch of softplus (−z_fake), from the zero word. -/
def lossF (hb : SScalar.BroadcastsInDim SBatch (![] : Fin 0 → Fin SBatch.rank)) (hr : SBatch.ReducesTo [0] SScalar)
    (h0 : 0 < SScalar.numel) (zFake : FVec F SBatch .f32) : FVec F SScalar .f32 :=
  Host.reduceAdd (softplus hb (Host.negf zFake)) (constant SScalar .f32 0x00000000#32) hr h0

/-- The discriminator's loss: the sum over the batch of softplus (−z_real) + softplus (z_fake), from the zero word. -/
def lossD (hb : SScalar.BroadcastsInDim SBatch (![] : Fin 0 → Fin SBatch.rank)) (hr : SBatch.ReducesTo [0] SScalar)
    (h0 : 0 < SScalar.numel) (zFake zReal : FVec F SBatch .f32) : FVec F SScalar .f32 :=
  Host.reduceAdd (addf (softplus hb (Host.negf zReal)) (softplus hb zFake)) (constant SScalar .f32 0x00000000#32) hr h0

end Cert.Mlp

end
-- ==== Proof.KernelFold.lean ====
/-
  The kernel program's two results as functions of its arguments.

  The program is: a first stretch of host operations (the four weight matrices narrowed to bf16, which at the extended
  reals changes nothing, and the four bias vectors reshaped to one-row matrices); the first kernel region over the
  first feature matrix; a reshape of its 65536 × 1 output column to a vector; the second region over the second feature
  matrix; and the two losses of the two vectors of logits. Each region leaves the column of its batch's logits in its
  output array as a function of the arrays it finds; those arrays, read back through the stretches and the earlier
  region, are the launch contents of the arguments (narrowed, or reshaped). So the two vectors are the batch's logits of
  the two feature matrices, and the results are the two losses of them.
-/
import proofs.«138501_j9869834846413_1_alg».proof.Proof.Gen.KernelIdeal.Frame
import proofs.«138501_j9869834846413_1_alg».proof.Proof.Region0
import proofs.«138501_j9869834846413_1_alg».proof.Proof.Region1
import proofs.«138501_j9869834846413_1_alg».proof.Proof.Batch
import proofs.«138501_j9869834846413_1_alg».proof.Proof.Loss
import Idealize.ShloMosaic.Lib.StableHlo.Run

set_option maxRecDepth 16384

noncomputable section

namespace Cert.KernelIdeal.Fold

open Cert.KernelIdeal Cert.KernelIdeal.Gen Cert.Mlp
open Idealize.ShloMosaic Idealize.ShloMosaic.TcCoe Idealize.ShloMosaic.ValueIdx Idealize.SL.Sem
open Idealize.ShloMosaic.StableHlo

/-! ## The tail: the results are the two losses of the two vectors the regions' outputs are reshaped to -/

section Tail

variable {F : FTy → Type} [FloatOps F]
variable (m : (ℓ : Loc nD τ sig) → Buf (Elt F) ℓ) (ρ : Dev nD → PrngReg)

/-- The first vector of logits when the second region ends: the reshape of the first region's column. -/
abbrev zFake (c : Dev nD) : FVec F S65536 .f32 := W4 m ρ c (Proc.devRef .tc main_v9)
/-- The second vector of logits: the reshape of the second region's column. -/
abbrev zReal (c : Dev nD) : FVec F S65536 .f32 :=
  shapeCast S65536 (W4 m ρ c (Proc.devRef .tc main_v10) : FVec F S65536x1 .f32) Facts₀.shapeCasts_S65536x1_S65536

theorem result0 (c : Dev nD) :
    (W10 m ρ c (Proc.devRef .tc main_v14) : FVec F S_ .f32)
      = lossF Facts₀.bcast_S_S65536 Facts₀.reducesTo_S65536_S_d0 Facts₀.h_S_ (zFake m ρ c) := by
  dsimp only [W10, W9, W8, W7, W6, W5, hostOps2, hostOps2_1, hostOps2_2, hostOps2_3, hostOps2_4, hostOps2_5]
  after_results_simp
  rfl

theorem result1 (c : Dev nD) :
    (W10 m ρ c (Proc.devRef .tc main_v19) : FVec F S_ .f32)
      = lossD Facts₀.bcast_S_S65536 Facts₀.reducesTo_S65536_S_d0 Facts₀.h_S_ (zFake m ρ c) (zReal m ρ c) := by
  dsimp only [W10, W9, W8, W7, W6, W5, hostOps2, hostOps2_1, hostOps2_2, hostOps2_3, hostOps2_4, hostOps2_5]
  after_results_simp
  rfl

/-! ## The arrays the first region finds: the first stretch's results -/

theorem V1_arg0 (c : Dev nD) : (V1 m ρ c main_arg0 : FVec F S65536x512 .f32) = m ((c : Thread nD τ).loc main_arg0) := by
  dsimp only [V1, W1, hostOps0]; after_results
theorem V1_v0 (c : Dev nD) : (V1 m ρ c main_v0 : FVec F S512x1000 .bf16)
    = truncf .bf16 (m ((c : Thread nD τ).loc main_arg2) : FVec F S512x1000 .f32) bitsLt_bf16_f32 := by
  dsimp only [V1, W1, hostOps0]; after_results
theorem V1_v1 (c : Dev nD) : (V1 m ρ c main_v1 : FVec F S1000x500 .bf16)
    = truncf .bf16 (m ((c : Thread nD τ).loc main_arg4) : FVec F S1000x500 .f32) bitsLt_bf16_f32 := by
  dsimp only [V1, W1, hostOps0]; after_results
theorem V1_v2 (c : Dev nD) : (V1 m ρ c main_v2 : FVec F S500x250 .bf16)
    = truncf .bf16 (m ((c : Thread nD τ).loc main_arg6) : FVec F S500x250 .f32) bitsLt_bf16_f32 := by
  dsimp only [V1, W1, hostOps0]; after_results
theorem V1_v3 (c : Dev nD) : (V1 m ρ c main_v3 : FVec F S250x1 .bf16)
    = truncf .bf16 (m ((c : Thread nD τ).loc main_arg8) : FVec F S250x1 .f32) bitsLt_bf16_f32 := by
  dsimp only [V1, W1, hostOps0]; after_results
theorem V1_v4 (c : Dev nD) : (V1 m ρ c main_v4 : FVec F S1x1000 .f32)
    = shapeCast S1x1000 (m ((c : Thread nD τ).loc main_arg3) : FVec F S1000 .f32) Facts₀.shapeCasts_S1000_S1x1000 := by
  dsimp only [V1, W1, hostOps0]; after_results; rfl
theorem V1_v5 (c : Dev nD) : (V1 m ρ c main_v5 : FVec F S1x500 .f32)
    = shapeCast S1x500 (m ((c : Thread nD τ).loc main_arg5) : FVec F S500 .f32) Facts₀.shapeCasts_S500_S1x500 := by
  dsimp only [V1, W1, hostOps0]; after_results; rfl
theorem V1_v6 (c : Dev nD) : (V1 m ρ c main_v6 : FVec F S1x250 .f32)
    = shapeCast S1x250 (m ((c : Thread nD τ).loc main_arg7) : FVec F S250 .f32) Facts₀.shapeCasts_S250_S1x250 := by
  dsimp only [V1, W1, hostOps0]; after_results; rfl
theorem V1_v7 (c : Dev nD) : (V1 m ρ c main_v7 : FVec F S1x1 .f32)
    = shapeCast S1x1 (m ((c : Thread nD τ).loc main_arg9) : FVec F S1 .f32) Facts₀.shapeCasts_S1_S1x1 := by
  dsimp only [V1, W1, hostOps0]; after_results; rfl

/-! ## The arrays the second region finds: the second feature matrix as launched, the rest as the first region found them

The reshape between the regions writes the first vector only, and the first region writes its output column only: an
input window's array leaves a region as it entered. -/

theorem V3_arg1 (c : Dev nD) : (V3 m ρ c main_arg1 : FVec F S65536x512 .f32) = m ((c : Thread nD τ).loc main_arg1) := by
  have h3 : W3 m ρ c (Proc.devRef .tc main_arg1) = W2 m ρ c (Proc.devRef .tc main_arg1) := by
    dsimp only [W3, hostOps1]; after_results
  have h1 : W1 m ρ c (Proc.devRef .tc main_arg1) = m ((c : Thread nD τ).loc main_arg1) := by
    dsimp only [W1, hostOps0]; after_results
  exact h3.trans ((W2_of_ne m ρ c main_arg1 (by decide)).trans h1)

theorem V3_v0 (c : Dev nD) : V3 m ρ c main_v0 = V1 m ρ c main_v0 := by
  have h3 : W3 m ρ c (Proc.devRef .tc main_v0) = W2 m ρ c (Proc.devRef .tc main_v0) := by
    dsimp only [W3, hostOps1]; after_results
  exact h3.trans ((W2_arr m ρ c 1).trans (((dat0 (V1 m ρ) c).arrAt_in 1 rfl _).trans (A_eq0 (V1 m ρ) c 1)))
theorem V3_v4 (c : Dev nD) : V3 m ρ c main_v4 = V1 m ρ c main_v4 := by
  have h3 : W3 m ρ c (Proc.devRef .tc main_v4) = W2 m ρ c (Proc.devRef .tc main_v4) := by
    dsimp only [W3, hostOps1]; after_results
  exact h3.trans ((W2_arr m ρ c 2).trans (((dat0 (V1 m ρ) c).arrAt_in 2 rfl _).trans (A_eq0 (V1 m ρ) c 2)))
theorem V3_v1 (c : Dev nD) : V3 m ρ c main_v1 = V1 m ρ c main_v1 := by
  have h3 : W3 m ρ c (Proc.devRef .tc main_v1) = W2 m ρ c (Proc.devRef .tc main_v1) := by
    dsimp only [W3, hostOps1]; after_results
  exact h3.trans ((W2_arr m ρ c 3).trans (((dat0 (V1 m ρ) c).arrAt_in 3 rfl _).trans (A_eq0 (V1 m ρ) c 3)))
theorem V3_v5 (c : Dev nD) : V3 m ρ c main_v5 = V1 m ρ c main_v5 := by
  have h3 : W3 m ρ c (Proc.devRef .tc main_v5) = W2 m ρ c (Proc.devRef .tc main_v5) := by
    dsimp only [W3, hostOps1]; after_results
  exact h3.trans ((W2_arr m ρ c 4).trans (((dat0 (V1 m ρ) c).arrAt_in 4 rfl _).trans (A_eq0 (V1 m ρ) c 4)))
theorem V3_v2 (c : Dev nD) : V3 m ρ c main_v2 = V1 m ρ c main_v2 := by
  have h3 : W3 m ρ c (Proc.devRef .tc main_v2) = W2 m ρ c (Proc.devRef .tc main_v2) := by
    dsimp only [W3, hostOps1]; after_results
  exact h3.trans ((W2_arr m ρ c 5).trans (((dat0 (V1 m ρ) c).arrAt_in 5 rfl _).trans (A_eq0 (V1 m ρ) c 5)))
theorem V3_v6 (c : Dev nD) : V3 m ρ c main_v6 = V1 m ρ c main_v6 := by
  have h3 : W3 m ρ c (Proc.devRef .tc main_v6) = W2 m ρ c (Proc.devRef .tc main_v6) := by
    dsimp only [W3, hostOps1]; after_results
  exact h3.trans ((W2_arr m ρ c 6).trans (((dat0 (V1 m ρ) c).arrAt_in 6 rfl _).trans (A_eq0 (V1 m ρ) c 6)))
theorem V3_v3 (c : Dev nD) : V3 m ρ c main_v3 = V1 m ρ c main_v3 := by
  have h3 : W3 m ρ c (Proc.devRef .tc main_v3) = W2 m ρ c (Proc.devRef .tc main_v3) := by
    dsimp only [W3, hostOps1]; after_results
  exact h3.trans ((W2_arr m ρ c 7).trans (((dat0 (V1 m ρ) c).arrAt_in 7 rfl _).trans (A_eq0 (V1 m ρ) c 7)))
theorem V3_v7 (c : Dev nD) : V3 m ρ c main_v7 = V1 m ρ c main_v7 := by
  have h3 : W3 m ρ c (Proc.devRef .tc main_v7) = W2 m ρ c (Proc.devRef .tc main_v7) := by
    dsimp only [W3, hostOps1]; after_results
  exact h3.trans ((W2_arr m ρ c 8).trans (((dat0 (V1 m ρ) c).arrAt_in 8 rfl _).trans (A_eq0 (V1 m ρ) c 8)))

/-- The first vector is the reshape of what the first region leaves in its output column. -/
theorem zFake_col (c : Dev nD) :
    zFake m ρ c = shapeCast S65536 ((dat0 (V1 m ρ) c).arrAt 9 cfg0.N : FVec F S65536x1 .f32)
      Facts₀.shapeCasts_S65536x1_S65536 := by
  have h4 : W4 m ρ c (Proc.devRef .tc main_v9) = W3 m ρ c (Proc.devRef .tc main_v9) :=
    W4_of_ne m ρ c main_v9 (by decide)
  have h3 : (W3 m ρ c (Proc.devRef .tc main_v9) : FVec F S65536 .f32)
      = shapeCast S65536 (W2 m ρ c (Proc.devRef .tc main_v8) : FVec F S65536x1 .f32)
          Facts₀.shapeCasts_S65536x1_S65536 := by
    dsimp only [W3, hostOps1]; after_results; rfl
  exact h4.trans (h3.trans (congrArg (fun a : FVec F S65536x1 .f32 => shapeCast S65536 a Facts₀.shapeCasts_S65536x1_S65536)
    (W2_arr m ρ c 9)))

/-- The second vector is the reshape of what the second region leaves in its output column. -/
theorem zReal_col (c : Dev nD) :
    zReal m ρ c = shapeCast S65536 ((dat1 (V3 m ρ) c).arrAt 9 cfg1.N : FVec F S65536x1 .f32)
      Facts₀.shapeCasts_S65536x1_S65536 :=
  congrArg (fun a : FVec F S65536x1 .f32 => shapeCast S65536 a Facts₀.shapeCasts_S65536x1_S65536) (W4_arr m ρ c 9)

end Tail

/-! ## At the extended reals: the two vectors are the batch's logits of the two feature matrices -/

/-- The logit of a row depends on the row, the weights and the biases through their entries only. -/
theorem logitRow_congr {x x' : Fin 512 → EReal}
    {w1 w1' : (⟨2, ![512, 1000]⟩ : Shape).Idx → EReal} {b1 b1' : Fin 1000 → EReal}
    {w2 w2' : (⟨2, ![1000, 500]⟩ : Shape).Idx → EReal} {b2 b2' : Fin 500 → EReal}
    {w3 w3' : (⟨2, ![500, 250]⟩ : Shape).Idx → EReal} {b3 b3' : Fin 250 → EReal}
    {w4 w4' : (⟨2, ![250, 1]⟩ : Shape).Idx → EReal} {b4 b4' : Fin 1 → EReal}
    (hx : ∀ k, x k = x' k) (hw1 : w1 = w1') (hb1 : ∀ j, b1 j = b1' j) (hw2 : w2 = w2') (hb2 : ∀ j, b2 j = b2' j)
    (hw3 : w3 = w3') (hb3 : ∀ j, b3 j = b3' j) (hw4 : w4 = w4') (hb4 : ∀ j, b4 j = b4' j) :
    logitRow x w1 b1 w2 b2 w3 b3 w4 b4 = logitRow x' w1' b1' w2' b2' w3' b3' w4' b4' := by
  obtain rfl := funext hx
  obtain rfl := funext hb1
  obtain rfl := funext hb2
  obtain rfl := funext hb3
  obtain rfl := funext hb4
  subst hw1 hw2 hw3 hw4
  rfl

section AtIdeal

variable (m : (ℓ : Loc nD τ sig) → Buf (Elt Ideal) ℓ) (ρ : Dev nD → PrngReg)

/-- The first vector of logits: the batch's logits of the first feature matrix. -/
theorem zFake_eq (c : Dev nD) :
    zFake m ρ c = logitsOf (m ((c : Thread nD τ).loc main_arg0)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  rw [zFake_col, Region0.final]
  funext i
  obtain ⟨r, rfl⟩ : ∃ r : Fin 65536, i = ix1 r := ⟨i 0, eq_ix1 i⟩
  rw [shapeCast_col_apply]
  unfold Region0.logits logitsOf
  refine logitRow_congr (fun k => congrFun (V1_arg0 m ρ c) _) ((V1_v0 m ρ c).trans rfl)
    (fun j => (congrFun (V1_v4 m ρ c) _).trans (shapeCast_a_1a_apply _ _ 0 j)) ((V1_v1 m ρ c).trans rfl)
    (fun j => (congrFun (V1_v5 m ρ c) _).trans (shapeCast_a_1a_apply _ _ 0 j)) ((V1_v2 m ρ c).trans rfl)
    (fun j => (congrFun (V1_v6 m ρ c) _).trans (shapeCast_a_1a_apply _ _ 0 j)) ((V1_v3 m ρ c).trans rfl)
    (fun j => (congrFun (V1_v7 m ρ c) _).trans (shapeCast_a_1a_apply _ _ 0 j))

/-- The second vector of logits: the batch's logits of the second feature matrix. -/
theorem zReal_eq (c : Dev nD) :
    zReal m ρ c = logitsOf (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  rw [zReal_col, Region1.final]
  funext i
  obtain ⟨r, rfl⟩ : ∃ r : Fin 65536, i = ix1 r := ⟨i 0, eq_ix1 i⟩
  rw [shapeCast_col_apply]
  unfold Region1.logits logitsOf
  refine logitRow_congr (fun k => congrFun (V3_arg1 m ρ c) _) ((V3_v0 m ρ c).trans ((V1_v0 m ρ c).trans rfl))
    (fun j => (congrFun ((V3_v4 m ρ c).trans (V1_v4 m ρ c)) _).trans (shapeCast_a_1a_apply _ _ 0 j))
    ((V3_v1 m ρ c).trans ((V1_v1 m ρ c).trans rfl))
    (fun j => (congrFun ((V3_v5 m ρ c).trans (V1_v5 m ρ c)) _).trans (shapeCast_a_1a_apply _ _ 0 j))
    ((V3_v2 m ρ c).trans ((V1_v2 m ρ c).trans rfl))
    (fun j => (congrFun ((V3_v6 m ρ c).trans (V1_v6 m ρ c)) _).trans (shapeCast_a_1a_apply _ _ 0 j))
    ((V3_v3 m ρ c).trans ((V1_v3 m ρ c).trans rfl))
    (fun j => (congrFun ((V3_v7 m ρ c).trans (V1_v7 m ρ c)) _).trans (shapeCast_a_1a_apply _ _ 0 j))

end AtIdeal

end Cert.KernelIdeal.Fold

end
-- ==== Proof.Reference.lean ====
/-
  The reference program's results as functions of its arguments: its two vectors of logits are the batch's logits, row by
  row, and its two results are the two losses of those vectors.

  The reference computes each layer over the whole batch at once: a dot_general, the bias broadcast along axis 1, a
  maximum with a broadcast zero. Read at entry (r, j), each layer is the dense layer of row r (the host spelling of the
  layer lemmas), so after the last layer and the reshape of the 65536 × 1 column, entry r of the vector is the logit of
  row r. The same operations applied to the second feature matrix give the second vector: it is the first one's
  function at the other argument. The rest of the program is the two losses, operation for operation.
-/
import proofs.«138501_j9869834846413_1_alg».proof.Proof.Gen.ReferenceIdeal.Read
import proofs.«138501_j9869834846413_1_alg».proof.Proof.Batch
import proofs.«138501_j9869834846413_1_alg».proof.Proof.Loss

set_option maxRecDepth 16384

noncomputable section

namespace Cert.ReferenceIdeal.RefValue

open Cert.ReferenceIdeal Cert.ReferenceIdeal.Gen Cert.ReferenceIdeal.Read Cert.Mlp
open Idealize.ShloMosaic Idealize.ShloMosaic.ValueIdx

variable {F : FTy → Type} [FloatOps F]

/-- The second vector of logits is the first one's function, at the second feature matrix. -/
theorem real_eq_fake (x1 : (⟨S65536x512, .f32⟩ : BufTy).Contents (Elt F)) (x2 : (⟨S512x1000, .f32⟩ : BufTy).Contents (Elt F)) (x3 : (⟨S1000, .f32⟩ : BufTy).Contents (Elt F)) (x4 : (⟨S1000x500, .f32⟩ : BufTy).Contents (Elt F)) (x5 : (⟨S500, .f32⟩ : BufTy).Contents (Elt F)) (x6 : (⟨S500x250, .f32⟩ : BufTy).Contents (Elt F)) (x7 : (⟨S250, .f32⟩ : BufTy).Contents (Elt F)) (x8 : (⟨S250x1, .f32⟩ : BufTy).Contents (Elt F)) (x9 : (⟨S1, .f32⟩ : BufTy).Contents (Elt F)) :
    val_main_v39 (F := F) x1 x2 x3 x4 x5 x6 x7 x8 x9 = val_main_v19 (F := F) x1 x2 x3 x4 x5 x6 x7 x8 x9 := rfl

/-- The first result is the generator's loss of the first vector of logits. -/
theorem res0_eq (x0 : (⟨S65536x512, .f32⟩ : BufTy).Contents (Elt F)) (x2 : (⟨S512x1000, .f32⟩ : BufTy).Contents (Elt F)) (x3 : (⟨S1000, .f32⟩ : BufTy).Contents (Elt F)) (x4 : (⟨S1000x500, .f32⟩ : BufTy).Contents (Elt F)) (x5 : (⟨S500, .f32⟩ : BufTy).Contents (Elt F)) (x6 : (⟨S500x250, .f32⟩ : BufTy).Contents (Elt F)) (x7 : (⟨S250, .f32⟩ : BufTy).Contents (Elt F)) (x8 : (⟨S250x1, .f32⟩ : BufTy).Contents (Elt F)) (x9 : (⟨S1, .f32⟩ : BufTy).Contents (Elt F)) :
    val_main_v42 (F := F) x0 x2 x3 x4 x5 x6 x7 x8 x9
      = lossF Facts₀.bcast_S_S65536 Facts₀.reducesTo_S65536_S_d0 Facts₀.h_S_ (val_main_v19 (F := F) x0 x2 x3 x4 x5 x6 x7 x8 x9) := by
  unfold val_main_v42 val_main_v41 val_main_call6_v11 val_main_call6_v10 val_main_call6_v9 val_main_call6_v8 val_main_call6_v7 val_main_call6_v6 val_main_call6_v5 val_main_call6_v4 val_main_call6_v3 val_main_call6_v2 val_main_call6_v1 val_main_call6_v0 val_main_call6_cst val_main_v40 val_main_cst lossF softplus
  rfl

/-- The second result is the discriminator's loss of the two vectors of logits. -/
theorem res1_eq (x0 x1 : (⟨S65536x512, .f32⟩ : BufTy).Contents (Elt F)) (x2 : (⟨S512x1000, .f32⟩ : BufTy).Contents (Elt F)) (x3 : (⟨S1000, .f32⟩ : BufTy).Contents (Elt F)) (x4 : (⟨S1000x500, .f32⟩ : BufTy).Contents (Elt F)) (x5 : (⟨S500, .f32⟩ : BufTy).Contents (Elt F)) (x6 : (⟨S500x250, .f32⟩ : BufTy).Contents (Elt F)) (x7 : (⟨S250, .f32⟩ : BufTy).Contents (Elt F)) (x8 : (⟨S250x1, .f32⟩ : BufTy).Contents (Elt F)) (x9 : (⟨S1, .f32⟩ : BufTy).Contents (Elt F)) :
    val_main_v47 (F := F) x0 x1 x2 x3 x4 x5 x6 x7 x8 x9
      = lossD Facts₀.bcast_S_S65536 Facts₀.reducesTo_S65536_S_d0 Facts₀.h_S_ (val_main_v19 (F := F) x0 x2 x3 x4 x5 x6 x7 x8 x9)
          (val_main_v19 (F := F) x1 x2 x3 x4 x5 x6 x7 x8 x9) := by
  rw [← real_eq_fake x1 x2 x3 x4 x5 x6 x7 x8 x9]
  unfold val_main_v47 val_main_v46 val_main_v44 val_main_v45 val_main_call7_v11 val_main_call7_v10 val_main_call7_v9 val_main_call7_v8 val_main_call7_v7 val_main_call7_v6 val_main_call7_v5 val_main_call7_v4 val_main_call7_v3 val_main_call7_v2 val_main_call7_v1 val_main_call7_v0 val_main_call7_cst val_main_call8_v11 val_main_call8_v10 val_main_call8_v9 val_main_call8_v8 val_main_call8_v7 val_main_call8_v6 val_main_call8_v5 val_main_call8_v4 val_main_call8_v3 val_main_call8_v2 val_main_call8_v1 val_main_call8_v0 val_main_call8_cst val_main_v43 val_main_cst_0 lossD softplus
  rfl

/-- Entry r of the reference's vector of logits is the logit of row r of the feature matrix. -/
theorem logits_eq (x0 : (⟨S65536x512, .f32⟩ : BufTy).Contents (Elt Ideal)) (x2 : (⟨S512x1000, .f32⟩ : BufTy).Contents (Elt Ideal)) (x3 : (⟨S1000, .f32⟩ : BufTy).Contents (Elt Ideal)) (x4 : (⟨S1000x500, .f32⟩ : BufTy).Contents (Elt Ideal)) (x5 : (⟨S500, .f32⟩ : BufTy).Contents (Elt Ideal)) (x6 : (⟨S500x250, .f32⟩ : BufTy).Contents (Elt Ideal)) (x7 : (⟨S250, .f32⟩ : BufTy).Contents (Elt Ideal)) (x8 : (⟨S250x1, .f32⟩ : BufTy).Contents (Elt Ideal)) (x9 : (⟨S1, .f32⟩ : BufTy).Contents (Elt Ideal)) :
    val_main_v19 (F := Ideal) x0 x2 x3 x4 x5 x6 x7 x8 x9 = logitsOf x0 x2 x3 x4 x5 x6 x7 x8 x9 := by
  funext i
  obtain ⟨r, rfl⟩ : ∃ r : Fin 65536, i = ix1 r := ⟨i 0, eq_ix1 i⟩
  unfold val_main_v19 val_main_v18 val_main_v17 val_main_v16 val_main_v15 val_main_v14 val_main_call2_v0 val_main_call2_cst val_main_v13 val_main_v12 val_main_v11 val_main_v10 val_main_v9 val_main_call1_v0 val_main_call1_cst val_main_v8 val_main_v7 val_main_v6 val_main_v5 val_main_v4 val_main_call0_v0 val_main_call0_cst val_main_v3 val_main_v2 val_main_v1 val_main_v0
  rw [shapeCast_col_apply]
  unfold logitsOf logitRow
  exact host_dense_apply (φ₁ := .f32) (φ₂ := .f32) dot_S65536x250_S250x1_S65536x1_1_0_0_1_n_n rfl _ x8 x9 _ _ r _
    (fun k => host_relu_apply (φ₁ := .f32) (φ₂ := .f32) dot_S65536x500_S500x250_S65536x250_1_0_0_1_n_n rfl _ x6 x7 _ _ _ r _
      (fun k => host_relu_apply (φ₁ := .f32) (φ₂ := .f32) dot_S65536x1000_S1000x500_S65536x500_1_0_0_1_n_n rfl _ x4 x5 _ _ _ r _
        (fun k => host_relu_apply (φ₁ := .f32) (φ₂ := .f32) dot_S65536x512_S512x1000_S65536x1000_1_0_0_1_n_n rfl x0 x2 x3 _ _ _ r _
          (fun k => rfl) k) k) k) 0

end Cert.ReferenceIdeal.RefValue

end
-- ==== Proof.lean ====
/-
  The certificate of a four-layer perceptron's two adversarial losses: a kernel that runs the perceptron over the batch
  in 32 blocks of 2048 rows, once per feature matrix, with bf16 operands, against the plain jnp reference in f32.

  At the extended reals narrowing to bf16 is the identity, a matrix product into a zero accumulator and a dot_general
  are both the sum over the contracted axis, and a dense layer is row-local; so each kernel region leaves, row by row,
  the same logits the reference computes over the whole batch at once (Region0, Region1 against Reference, both through
  the one-row function of MlpRow). Both programs then apply the same softplus sums to the two vectors of logits (Loss).
  No algebraic law beyond reading each layer at an entry is used, so the precondition is never opened.

  The frames of the two kernel programs are the generated ones; the reference's is its generated run with the results
  dropped; the idealization rewrote nothing, so there is nothing to preserve.
-/
import proofs.«138501_j9869834846413_1_alg».proof.Defs
import proofs.«138501_j9869834846413_1_alg».proof.Proof.Gen.Kernel
import proofs.«138501_j9869834846413_1_alg».proof.Proof.Gen.Kernel.Frame
import proofs.«138501_j9869834846413_1_alg».proof.Proof.Gen.KernelIdeal
import proofs.«138501_j9869834846413_1_alg».proof.Proof.Gen.KernelIdeal.Frame
import proofs.«138501_j9869834846413_1_alg».proof.Proof.Gen.ReferenceIdeal
import proofs.«138501_j9869834846413_1_alg».proof.Proof.Gen.ReferenceIdeal.Run
import proofs.«138501_j9869834846413_1_alg».proof.Proof.Gen.ReferenceIdeal.Read
import proofs.«138501_j9869834846413_1_alg».proof.Proof.Gen.Pre_finite_inputs
import proofs.«138501_j9869834846413_1_alg».proof.Proof.KernelRun
import proofs.«138501_j9869834846413_1_alg».proof.Proof.KernelFold
import proofs.«138501_j9869834846413_1_alg».proof.Proof.Reference
import Idealize.ShloMosaic.Adequacy
import Idealize.ShloMosaic.Init

set_option maxRecDepth 16384

noncomputable section

namespace Cert.Proof

open Idealize.ShloMosaic Idealize.ShloMosaic.TcCoe Idealize.SL.Sem Cert.Mlp

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the generator's loss of the first feature matrix's logits and the discriminator's loss of
    both matrices' logits, the logits being the batch's, row by row, of the (agreeing) arguments. -/
theorem algebraic : Cert.algebraic_KernelIdeal_ReferenceIdeal := by
  intro m ρ m' ρ' _ hagree
  refine ⟨fun c => lossF (F := Ideal) Cert.KernelIdeal.Facts₀.bcast_S_S65536 Cert.KernelIdeal.Facts₀.reducesTo_S65536_S_d0
      Cert.KernelIdeal.Facts₀.h_S_ (logitsOf
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))),
    fun c => lossD (F := Ideal) Cert.KernelIdeal.Facts₀.bcast_S_S65536 Cert.KernelIdeal.Facts₀.reducesTo_S65536_S_d0
      Cert.KernelIdeal.Facts₀.h_S_ (logitsOf
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)))
      (logitsOf
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))),
    ?_, ?_⟩
  · refine (θ_run Cert.KernelIdeal.defs _ _).mono (fun r h c => ?_) (Cert.KernelIdeal.Gen.run_results (F := Ideal) m ρ)
    obtain ⟨h0, h1, hargs⟩ := h c
    refine ⟨h0.trans ((Cert.KernelIdeal.Fold.result0 m ρ c).trans ?_),
      h1.trans ((Cert.KernelIdeal.Fold.result1 m ρ c).trans ?_), hargs⟩
    · rw [Cert.KernelIdeal.Fold.zFake_eq]
    · rw [Cert.KernelIdeal.Fold.zFake_eq, Cert.KernelIdeal.Fold.zReal_eq]
  · refine (θ_run Cert.ReferenceIdeal.defs _ _).mono (fun r h c => ?_)
      (Cert.ReferenceIdeal.Value.run (F := Ideal) m' ρ')
    obtain ⟨h0, h1, hargs⟩ := h c
    obtain ⟨a0, a1, a2, a3, a4, a5, a6, a7, a8, a9⟩ := hagree c
    have e0 : logitsOf (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
        = logitsOf (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) := by
      rw [a0, a2, a3, a4, a5, a6, a7, a8, a9]
    have e1 : logitsOf (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
        = logitsOf (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) := by
      rw [a1, a2, a3, a4, a5, a6, a7, a8, a9]
    refine ⟨h0.trans ((Cert.ReferenceIdeal.Read.val_main_v42_eq m' c).trans ?_),
      h1.trans ((Cert.ReferenceIdeal.Read.val_main_v47_eq m' c).trans ?_), hargs⟩
    · rw [Cert.ReferenceIdeal.RefValue.res0_eq, Cert.ReferenceIdeal.RefValue.logits_eq, e0]
    · rw [Cert.ReferenceIdeal.RefValue.res1_eq, Cert.ReferenceIdeal.RefValue.logits_eq,
        Cert.ReferenceIdeal.RefValue.logits_eq, e0, e1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
